-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 124
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x1, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S50000x128, .f32⟩
  | .hbm, ⟨97, _⟩ => ⟨S50000x64, .f32⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x64, .f32⟩
  | .hbm, ⟨107, _⟩ => ⟨S800000x1, .f32⟩
  | .hbm, ⟨108, _⟩ => ⟨S800000x64, .f32⟩
  | .hbm, ⟨109, _⟩ => ⟨S800000x64, .f32⟩
  | .hbm, ⟨110, _⟩ => ⟨S_, .f32⟩
  | .hbm, ⟨111, _⟩ => ⟨S50000x64, .f32⟩
  | .hbm, ⟨112, _⟩ => ⟨S800000x1, .i32⟩
  | .hbm, ⟨113, _⟩ => ⟨S50000x64, .f32⟩
  | .hbm, ⟨114, _⟩ => ⟨S1x64, .f32⟩
  | .hbm, ⟨115, _⟩ => ⟨S_, .f32⟩
  | .hbm, ⟨116, _⟩ => ⟨S1x64, .f32⟩
  | .hbm, ⟨117, _⟩ => ⟨S_, .f32⟩
  | .hbm, ⟨118, _⟩ => ⟨S1x64, .f32⟩
  | .hbm, ⟨119, _⟩ => ⟨S_, .f32⟩
  | .hbm, ⟨120, _⟩ => ⟨S1x64, .f32⟩
  | .hbm, ⟨121, _⟩ => ⟨S_, .f32⟩
  | .hbm, ⟨122, _⟩ => ⟨S1x64, .f32⟩
  | .hbm, ⟨123, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x1, .f32⟩
  | .local _ .vmem, ⟨46, _⟩ => ⟨S2000x1, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_11 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  bcast_S_S1x64 : S_.BroadcastsInDim S1x64 (![] : Fin 0 → Fin S1x64.rank)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x64.size a ≤ S50000x64.size a
  hwx5_8 : ∀ i : grid5.Coords, EltTy.bits .f32 = 32 ∨ (Rect.block (s := S50000x64) S2000x64.size (cc5_transform_8 i) (hinb5_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v66) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v67) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v67) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v86) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v87) S2000x64.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 236
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S50000x128, .f32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .f32⟩
  | 96 => ⟨S50000x128, .f32⟩
  | 97 => ⟨S1x800000, .i32⟩
  | 98 => ⟨S800000, .i32⟩
  | 99 => ⟨S1x800000, .i32⟩
  | 100 => ⟨S800000, .i32⟩
  | 101 => ⟨S50000x128, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000, .f32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x1, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S50000, .f32⟩
  | 20 => ⟨S50000x1, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .i1⟩
  | 46 => ⟨S_, .f32⟩
  | 47 => ⟨S50000x128, .f32⟩
  | 48 => ⟨S50000x128, .f32⟩
  | 49 => ⟨S50000x128, .f32⟩
  | 50 => ⟨S1x800000, .i32⟩
  | 51 => ⟨S800000, .i32⟩
  | 52 => ⟨S1x800000, .i32⟩
  | 53 => ⟨S800000, .i32⟩
  | 54 => ⟨S50000x64, .f32⟩
  | 55 => ⟨S_, .f32⟩
  | 56 => ⟨S800000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S50000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x1, .f32⟩
  | 94 => ⟨S800000x64, .f32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S50000, .f32⟩
  | 101 => ⟨S50000x1, .f32⟩
  | 102 => ⟨S50000x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_13 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_14 : Ref sig .tc := ⟨.hbm, 112, rfl⟩
abbrev main_v80 : Ref sig .tc := ⟨.hbm, 113, rfl⟩
abbrev main_v81 : Ref sig .tc := ⟨.hbm, 114, rfl⟩
abbrev main_c_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_c_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_18 : Ref sig .tc := ⟨.hbm, 131, rfl⟩
abbrev main_v95 : Ref sig .tc := ⟨.hbm, 132, rfl⟩
abbrev main_v96 : Ref sig .tc := ⟨.hbm, 133, rfl⟩
abbrev main_c_19 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_20 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_21 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_22 : Ref sig .tc := ⟨.hbm, 171, rfl⟩
abbrev main_v131 : Ref sig .tc := ⟨.hbm, 172, rfl⟩
abbrev main_v132 : Ref sig .tc := ⟨.hbm, 173, rfl⟩
abbrev main_cst_23 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_24 : Ref sig .tc := ⟨.hbm, 183, rfl⟩
abbrev main_v141 : Ref sig .tc := ⟨.hbm, 184, rfl⟩
abbrev main_cst_25 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_26 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_c_27 : Ref sig .tc := ⟨.hbm, 193, rfl⟩
abbrev main_v148 : Ref sig .tc := ⟨.hbm, 194, rfl⟩
abbrev main_v149 : Ref sig .tc := ⟨.hbm, 195, rfl⟩
abbrev main_c_28 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_c_29 : Ref sig .tc := ⟨.hbm, 202, rfl⟩
abbrev main_v155 : Ref sig .tc := ⟨.hbm, 203, rfl⟩
abbrev main_v156 : Ref sig .tc := ⟨.hbm, 204, rfl⟩
abbrev main_c_30 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_c_31 : Ref sig .tc := ⟨.hbm, 212, rfl⟩
abbrev main_v163 : Ref sig .tc := ⟨.hbm, 213, rfl⟩
abbrev main_v164 : Ref sig .tc := ⟨.hbm, 214, rfl⟩
abbrev main_c_32 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_33 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Stages.lean ====
/-
  A three-layer graph convolution, stage by stage, as functions of each stage's operands (at any float instance).

  From the edge list e : [2, 800000] (row 0 the source node of each edge, row 1 its target):
    deg⁻¹ᐟ²  = rsqrt (1 + number of edges into each node)              `invSqrtDeg`
    coef     = deg⁻¹ᐟ²[src] · deg⁻¹ᐟ²[dst], one number an edge          `edgeCoef`
    scale    = deg⁻¹ᐟ² · deg⁻¹ᐟ² = 1 / deg, one number a node           `selfScale`
  One convolution of node features x with weights W and bias b:
    h   = x · W                                                        (a matrix product)
    agg = for every edge, coef · h[src] added into row dst             `aggregate128` / `aggregate64`
    out = (agg + h · scale) + b                                        `convOut128` / `convOut64`
  Between layers: batch normalisation with stored statistics, `((y − μ) · rsqrt (v + ε)) · γ + β` (`bnAffine`), then
  the leaky rectifier `if z > 0 then z else 0.1 · z` (`leaky`).
  A node index out of 0 … 49999 is wrapped once (negative ones get 50000 added: `wrapIdx`) before a gather.
-/
import proofs.«420302_j43971875177077_3_alg».proof.Proof.Gen.ReferenceIdeal
import Idealize.ShloMosaic.Lib.ValueIdx
import Idealize.ShloMosaic.Lib.Pipeline.Value
import Idealize.ShloMosaic.PureOps.Ideal.Laws

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-! ## The edge list -/

/-- The source node of every edge: row 0 of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The target node of every edge: row 1 of the edge list. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Node numbers as a gather's index column: a negative number has 50000 added. -/
def wrapIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- `rsqrt (1 + in-degree)` of every node: ones scattered along the edges' targets, one added for the self loop. -/
def invSqrtDeg (dst : (⟨S800000, .i32⟩ : BufTy).Contents (Elt F)) : (⟨S50000, .f32⟩ : BufTy).Contents (Elt F) :=
  Host.rsqrt (addf (broadcastInDim S50000 ![] bcast_S_S50000 (constant S_ .f32 0x3F800000#32))
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32))))

/-- The coefficient of every edge: the product of its two end nodes' `rsqrt (1 + in-degree)`. -/
def edgeCoef (src dst : (⟨S800000, .i32⟩ : BufTy).Contents (Elt F)) : (⟨S800000, .f32⟩ : BufTy).Contents (Elt F) :=
  mulf (Host.gather gather_S50000_S800000x1_S800000_n_0_n_n_0_1_1 (invSqrtDeg dst) (wrapIdx src))
    (Host.gather gather_S50000_S800000x1_S800000_n_0_n_n_0_1_1 (invSqrtDeg dst) (wrapIdx dst))

/-- The self loop's weight of every node: `1 / (1 + in-degree)` as the square of `rsqrt`. -/
def selfScale (dst : (⟨S800000, .i32⟩ : BufTy).Contents (Elt F)) : (⟨S50000, .f32⟩ : BufTy).Contents (Elt F) :=
  mulf (invSqrtDeg dst) (invSqrtDeg dst)

/-! ## Message passing: gather the source rows, scale by the edge's coefficient, add into the target rows -/

def aggregate128 (h : (⟨S50000x128, .f32⟩ : BufTy).Contents (Elt F)) (src dst : (⟨S800000, .i32⟩ : BufTy).Contents (Elt F))
    (coef : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h (wrapIdx src))
      (broadcastInDim S800000x128 ![0, 1] bcast_S800000x1_S800000x128_0_1
        (broadcastInDim S800000x1 ![0] bcast_S800000_S800000x1_0 coef)))

def aggregate64 (h : (⟨S50000x64, .f32⟩ : BufTy).Contents (Elt F)) (src dst : (⟨S800000, .i32⟩ : BufTy).Contents (Elt F))
    (coef : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf (Host.gather gather_S50000x64_S800000x1_S800000x64_1_0_n_n_0_1_164 h (wrapIdx src))
      (broadcastInDim S800000x64 ![0, 1] bcast_S800000x1_S800000x64_0_1
        (broadcastInDim S800000x1 ![0] bcast_S800000_S800000x1_0 coef)))

/-! ## A per-feature vector along every row, a per-node vector along every column -/

def rowBcast128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

def rowBcast64 (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

def colBcast128 (d : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 d)

def colBcast64 (d : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 d)

/-! ## One convolution's output, the normalisation and the rectifier -/

/-- `(agg + h · scale) + b`. -/
def convOut128 (agg h : (⟨S50000x128, .f32⟩ : BufTy).Contents (Elt F)) (scale : (⟨S50000, .f32⟩ : BufTy).Contents (Elt F))
    (b : (⟨S128, .f32⟩ : BufTy).Contents (Elt F)) : (⟨S50000x128, .f32⟩ : BufTy).Contents (Elt F) :=
  addf (addf agg (mulf h (colBcast128 scale))) (rowBcast128 b)

def convOut64 (agg h : (⟨S50000x64, .f32⟩ : BufTy).Contents (Elt F)) (scale : (⟨S50000, .f32⟩ : BufTy).Contents (Elt F))
    (b : (⟨S64, .f32⟩ : BufTy).Contents (Elt F)) : (⟨S50000x64, .f32⟩ : BufTy).Contents (Elt F) :=
  addf (addf agg (mulf h (colBcast64 scale))) (rowBcast64 b)

/-- `((y − μ) · rsqrt (v + ε)) · γ + β`, ε the single-precision 1e-5. -/
def bnAffine (y : (⟨S50000x128, .f32⟩ : BufTy).Contents (Elt F)) (γ β μ v : (⟨S128, .f32⟩ : BufTy).Contents (Elt F)) :
    (⟨S50000x128, .f32⟩ : BufTy).Contents (Elt F) :=
  addf (mulf (mulf (subf y (rowBcast128 μ))
    (rowBcast128 (Host.rsqrt (addf v (broadcastInDim S128 ![] bcast_S_S128 (constant S_ .f32 0x3727C5AC#32))))))
    (rowBcast128 γ)) (rowBcast128 β)

/-- `if z > 0 then z else 0.1 · z`, 0.1 the single-precision constant. -/
def leaky (z : (⟨S50000x128, .f32⟩ : BufTy).Contents (Elt F)) : (⟨S50000x128, .f32⟩ : BufTy).Contents (Elt F) :=
  select (cmpf .ogt z (broadcastInDim S50000x128 ![] bcast_S_S50000x128 (constant S_ .f32 0x00000000#32))) z
    (mulf (broadcastInDim S50000x128 ![] bcast_S_S50000x128 (constant S_ .f32 0x3DCCCCCD#32)) z)

/-! ## The layers and the network -/

/-- A convolution into 128 features. -/
def conv128 (x : (⟨S50000x128, .f32⟩ : BufTy).Contents (Elt F)) (e : (⟨S2x800000, .i32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  convOut128 (aggregate128 (Host.dotGeneral dot_S50000x128_S128x128_S50000x128_1_0_0_1_n_n none x W) (srcOf e) (dstOf e)
      (edgeCoef (srcOf e) (dstOf e)))
    (Host.dotGeneral dot_S50000x128_S128x128_S50000x128_1_0_0_1_n_n none x W) (selfScale (dstOf e)) b

/-- A convolution into 64 features. -/
def conv64 (x : (⟨S50000x128, .f32⟩ : BufTy).Contents (Elt F)) (e : (⟨S2x800000, .i32⟩ : BufTy).Contents (Elt F))
    (W : (⟨S128x64, .f32⟩ : BufTy).Contents (Elt F)) (b : (⟨S64, .f32⟩ : BufTy).Contents (Elt F)) :
    (⟨S50000x64, .f32⟩ : BufTy).Contents (Elt F) :=
  convOut64 (aggregate64 (Host.dotGeneral dot_S50000x128_S128x64_S50000x64_1_0_0_1_n_n none x W) (srcOf e) (dstOf e)
      (edgeCoef (srcOf e) (dstOf e)))
    (Host.dotGeneral dot_S50000x128_S128x64_S50000x64_1_0_0_1_n_n none x W) (selfScale (dstOf e)) b

/-- A hidden layer: convolution, normalisation, rectifier. -/
def hidden (x : (⟨S50000x128, .f32⟩ : BufTy).Contents (Elt F)) (e : (⟨S2x800000, .i32⟩ : BufTy).Contents (Elt F))
    (W : (⟨S128x128, .f32⟩ : BufTy).Contents (Elt F)) (b γ β μ v : (⟨S128, .f32⟩ : BufTy).Contents (Elt F)) :
    (⟨S50000x128, .f32⟩ : BufTy).Contents (Elt F) :=
  leaky (bnAffine (conv128 x e W b) γ β μ v)

/-- The network: two hidden layers and a last convolution. -/
def gcn (x : (⟨S50000x128, .f32⟩ : BufTy).Contents (Elt F)) (e : (⟨S2x800000, .i32⟩ : BufTy).Contents (Elt F))
    (W1 : (⟨S128x128, .f32⟩ : BufTy).Contents (Elt F)) (b1 γ1 β1 μ1 v1 : (⟨S128, .f32⟩ : BufTy).Contents (Elt F))
    (W2 : (⟨S128x128, .f32⟩ : BufTy).Contents (Elt F)) (b2 γ2 β2 μ2 v2 : (⟨S128, .f32⟩ : BufTy).Contents (Elt F))
    (W3 : (⟨S128x64, .f32⟩ : BufTy).Contents (Elt F)) (b3 : (⟨S64, .f32⟩ : BufTy).Contents (Elt F)) :
    (⟨S50000x64, .f32⟩ : BufTy).Contents (Elt F) :=
  conv64 (hidden (hidden x e W1 b1 γ1 β1 μ1 v1) e W2 b2 γ2 β2 μ2 v2) e W3 b3

/-! ## One entry at a time, at the ideal instance (floats are extended reals) -/

/-- An entry of a convolution's output: `(agg + h · scale) + b`. -/
def convAt (a h s b : EReal) : EReal := a + h * s + b

/-- An entry normalised: `((y − μ) · rsqrt (v + ε)) · γ + β`. -/
def bnAt (y γ β μ v : EReal) : EReal := (y - μ) * Ideal.rsqrt (v + Ideal.ofBits .f32 0x3727C5AC#32) * γ + β

/-- The leaky rectifier of an entry: the entry where it is positive, a tenth of it elsewhere. -/
def leakyAt (z : EReal) : EReal :=
  Scalar.select (FloatOps.cmpf (F := Ideal) (φ := .f32) .ogt z (Ideal.ofBits .f32 0x00000000#32)) z
    (Ideal.ofBits .f32 0x3DCCCCCD#32 * z)

/-- Entry (r, c) of an [N, 128] array reads the column vector [N, 1] at (r, 0) and a row vector [1, 128] at (0, c). -/
abbrev colOf128 (i : S50000x128.Idx) : S50000x1.Idx := ValueIdx.ix2 (⟨(i 0).val, (i 0).isLt⟩ : Fin 50000) (0 : Fin 1)
abbrev rowOf128 (i : S50000x128.Idx) : S1x128.Idx := ValueIdx.ix2 (0 : Fin 1) (⟨(i 1).val, (i 1).isLt⟩ : Fin 128)
abbrev colOf64 (i : S50000x64.Idx) : S50000x1.Idx := ValueIdx.ix2 (⟨(i 0).val, (i 0).isLt⟩ : Fin 50000) (0 : Fin 1)
abbrev rowOf64 (i : S50000x64.Idx) : S1x64.Idx := ValueIdx.ix2 (0 : Fin 1) (⟨(i 1).val, (i 1).isLt⟩ : Fin 64)

/-- A hidden layer's output entry by entry, from the aggregate and the product [N, 128], the self-loop scale as a
    column [N, 1], and the bias, γ, β, μ and the variance as rows [1, 128]. -/
def hidden2d (agg h : S50000x128.Idx → EReal) (s : S50000x1.Idx → EReal) (b γ β μ v : S1x128.Idx → EReal) :
    S50000x128.Idx → EReal :=
  fun i => leakyAt (bnAt (convAt (agg i) (h i) (s (colOf128 i)) (b (rowOf128 i)))
    (γ (rowOf128 i)) (β (rowOf128 i)) (μ (rowOf128 i)) (v (rowOf128 i)))

/-- The last convolution's output entry by entry. -/
def last2d (agg h : S50000x64.Idx → EReal) (s : S50000x1.Idx → EReal) (b : S1x64.Idx → EReal) : S50000x64.Idx → EReal :=
  fun i => convAt (agg i) (h i) (s (colOf64 i)) (b (rowOf64 i))

/-- A matrix product [N, 128] · [128, 128] entry by entry. -/
def matmul128 (x : S50000x128.Idx → EReal) (w : S128x128.Idx → EReal) : S50000x128.Idx → EReal :=
  fun i => ∑ k : Fin 128, x (ValueIdx.ix2 (⟨(i 0).val, (i 0).isLt⟩ : Fin 50000) k) * w (ValueIdx.ix2 k (⟨(i 1).val, (i 1).isLt⟩ : Fin 128))

/-- A matrix product [N, 128] · [128, 64] entry by entry. -/
def matmul64 (x : S50000x128.Idx → EReal) (w : S128x64.Idx → EReal) : S50000x64.Idx → EReal :=
  fun i => ∑ k : Fin 128, x (ValueIdx.ix2 (⟨(i 0).val, (i 0).isLt⟩ : Fin 50000) k) * w (ValueIdx.ix2 k (⟨(i 1).val, (i 1).isLt⟩ : Fin 64))

end Cert.Gcn

end
-- ==== Proof.StagesRead.lean ====
/-
  The reference's operations read entry by entry, at the ideal instance.

  A matrix product on the host is the plain sum over the contracted axis. A per-feature vector [128] placed as a row
  [1, 128] and spread over the rows, and a per-node vector [50000] placed as a column [50000, 1] and spread over the
  columns, read at (r, c) the vector at c, respectively at r. With these, a hidden layer's output
  `leaky (bnAffine (convOut128 agg h scale b) γ β μ v)` is, entry by entry, the function `hidden2d` of the aggregate,
  the product, the column and the five rows; the last convolution's output likewise `last2d`.
-/
import proofs.«420302_j43971875177077_3_alg».proof.Proof.Stages

noncomputable section

namespace Cert.Gcn

open Cert.ReferenceIdeal Cert.ReferenceIdeal.Gen Idealize.ShloMosaic Idealize.ShloMosaic.TcCoe Idealize.SL.Sem Idealize.ShloMosaic.StableHlo

/-! ## The matrix products -/

/-! ### [50000, 128] · [128, 128] -/

theorem lhs_dot128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_dot128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_dot128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_dot128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's matrix product is, entry (r, c), the sum over k of x (r, k) · w (k, c). -/
theorem dot128_eq (x : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none x w = matmul128 x w := by
  funext i
  simp only [Host.dotGeneral]
  rw [Ideal.dotGeneral_apply, ← Equiv.sum_comp (ValueIdx.contrEquiv1 dot_S50000x128_S128x128_S50000x128_1_0_0_1_n_n 128 rfl rfl).symm]
  unfold matmul128
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k)
      = ValueIdx.ix2 (⟨(i 0).val, (i 0).isLt⟩ : Fin 50000) k := funext fun a => Fin.ext (by
    match a with
    | ⟨0, _⟩ => exact lhs_dot128_0 _ _
    | ⟨1, _⟩ => exact (lhs_dot128_1 _ _).trans hk)
  have er : dot_S50000x128_S128x128_S50000x128_1_0_0_1_n_n.rhsIdx i ((ValueIdx.contrEquiv1 dot_S50000x128_S128x128_S50000x128_1_0_0_1_n_n 128 rfl rfl).symm k)
      = ValueIdx.ix2 k (⟨(i 1).val, (i 1).isLt⟩ : Fin 128) := funext fun a => Fin.ext (by
    match a with
    | ⟨0, _⟩ => exact (rhs_dot128_0 _ _).trans hk
    | ⟨1, _⟩ => exact rhs_dot128_1 _ _)
  rw [el, er]

/-! ### [50000, 128] · [128, 64] -/

theorem lhs_dot64_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_dot64_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs_dot64_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs_dot64_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's matrix product is, entry (r, c), the sum over k of x (r, k) · w (k, c). -/
theorem dot64_eq (x : (⟨S50000x128, .f32⟩ : BufTy).Contents (Elt Ideal)) (w : (⟨S128x64, .f32⟩ : BufTy).Contents (Elt Ideal)) :
    Host.dotGeneral (F := Ideal) (φ₁ := .f32) (φ₂ := .f32) dot_S50000x128_S128x64_S50000x64_1_0_0_1_n_n none x w = matmul64 x w := by
  funext i
  simp only [Host.dotGeneral]
  rw [Ideal.dotGeneral_apply, ← Equiv.sum_comp (ValueIdx.contrEquiv1 dot_S50000x128_S128x64_S50000x64_1_0_0_1_n_n 128 rfl rfl).symm]
  unfold matmul64
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k)
      = ValueIdx.ix2 (⟨(i 0).val, (i 0).isLt⟩ : Fin 50000) k := funext fun a => Fin.ext (by
    match a with
    | ⟨0, _⟩ => exact lhs_dot64_0 _ _
    | ⟨1, _⟩ => exact (lhs_dot64_1 _ _).trans hk)
  have er : dot_S50000x128_S128x64_S50000x64_1_0_0_1_n_n.rhsIdx i ((ValueIdx.contrEquiv1 dot_S50000x128_S128x64_S50000x64_1_0_0_1_n_n 128 rfl rfl).symm k)
      = ValueIdx.ix2 k (⟨(i 1).val, (i 1).isLt⟩ : Fin 64) := funext fun a => Fin.ext (by
    match a with
    | ⟨0, _⟩ => exact (rhs_dot64_0 _ _).trans hk
    | ⟨1, _⟩ => exact rhs_dot64_1 _ _)
  rw [el, er]

/-! ## Rows and columns -/

/-- A vector [128] as the row [1, 128]. -/
abbrev asRow128 (b : (⟨S128, .f32⟩ : BufTy).Contents (Elt Ideal)) : (⟨S1x128, .f32⟩ : BufTy).Contents (Elt Ideal) :=
  broadcastInDim S1x128 ![1] bcast_S128_S1x128_1 b
/-- A vector [64] as the row [1, 64]. -/
abbrev asRow64 (b : (⟨S64, .f32⟩ : BufTy).Contents (Elt Ideal)) : (⟨S1x64, .f32⟩ : BufTy).Contents (Elt Ideal) :=
  broadcastInDim S1x64 ![1] bcast_S64_S1x64_1 b
/-- A vector [50000] as the column [50000, 1]. -/
abbrev asCol (d : (⟨S50000, .f32⟩ : BufTy).Contents (Elt Ideal)) : (⟨S50000x1, .f32⟩ : BufTy).Contents (Elt Ideal) :=
  broadcastInDim S50000x1 ![0] bcast_S50000_S50000x1_0 d

/-- A row [1, 128] spread over 50000 rows reads, at (r, c), the row at (0, c). -/
theorem spreadRow128_apply (y : S1x128.Idx → EReal) (i : S50000x128.Idx) :
    broadcastInDim S50000x128 ![0, 1] bcast_S1x128_S50000x128_0_1 y i = y (rowOf128 i) :=
  broadcastInDim_apply _ bcast_S1x128_S50000x128_0_1 y i (rowOf128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem spreadRow64_apply (y : S1x64.Idx → EReal) (i : S50000x64.Idx) :
    broadcastInDim S50000x64 ![0, 1] bcast_S1x64_S50000x64_0_1 y i = y (rowOf64 i) :=
  broadcastInDim_apply _ bcast_S1x64_S50000x64_0_1 y i (rowOf64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- A column [50000, 1] spread over 128 columns reads, at (r, c), the column at (r, 0). -/
theorem spreadCol128_apply (y : S50000x1.Idx → EReal) (i : S50000x128.Idx) :
    broadcastInDim S50000x128 ![0, 1] bcast_S50000x1_S50000x128_0_1 y i = y (colOf128 i) :=
  broadcastInDim_apply _ bcast_S50000x1_S50000x128_0_1 y i (colOf128 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

theorem spreadCol64_apply (y : S50000x1.Idx → EReal) (i : S50000x64.Idx) :
    broadcastInDim S50000x64 ![0, 1] bcast_S50000x1_S50000x64_0_1 y i = y (colOf64 i) :=
  broadcastInDim_apply _ bcast_S50000x1_S50000x64_0_1 y i (colOf64 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- The row [1, 128] of a vector reads the vector at its column. -/
theorem asRow128_apply (b : S128.Idx → EReal) (j : S1x128.Idx) :
    broadcastInDim S1x128 ![1] bcast_S128_S1x128_1 b j = b (ValueIdx.ix1 (⟨(j 1).val, (j 1).isLt⟩ : Fin 128)) :=
  broadcastInDim_apply _ bcast_S128_S1x128_1 b j _ (fun a => match a with
    | ⟨0, _⟩ => by show (j 1).val = if (128 : Nat) = 1 then 0 else (j 1).val; rw [if_neg (by decide)])

/-- A scalar spread over a row [1, 128] or a vector [128] reads the scalar. -/
theorem splat128_apply (s : S_.Idx → EReal) (j : S128.Idx) :
    broadcastInDim S128 ![] bcast_S_S128 s j = s ValueIdx.ix0 :=
  broadcastInDim_apply _ bcast_S_S128 s j _ (fun a => a.elim0)

theorem splatAll128_apply (s : S_.Idx → EReal) (i : S50000x128.Idx) :
    broadcastInDim S50000x128 ![] bcast_S_S50000x128 s i = s ValueIdx.ix0 :=
  broadcastInDim_apply _ bcast_S_S50000x128 s i _ (fun a => a.elim0)

/-! ## A hidden layer and the last convolution, entry by entry -/

/-- The normalisation's reciprocal standard deviation commutes with placing the variance as a row. -/
theorem rsqrtRow_apply (v : S128.Idx → EReal) (i : S50000x128.Idx) :
    rowBcast128 (F := Ideal) (Host.rsqrt (F := Ideal) (addf v (broadcastInDim S128 ![] bcast_S_S128 (constant S_ .f32 0x3727C5AC#32)))) i
      = Ideal.rsqrt (asRow128 v (rowOf128 i) + Ideal.ofBits .f32 0x3727C5AC#32) := by
  unfold rowBcast128
  rw [spreadRow128_apply]
  refine (asRow128_apply _ (rowOf128 i)).trans ?_
  show Ideal.rsqrt (v _ + broadcastInDim S128 ![] bcast_S_S128 (constant (F := Ideal) S_ .f32 0x3727C5AC#32) _) = _
  rw [splat128_apply]
  exact congrArg (fun t => Ideal.rsqrt (t + Ideal.ofBits .f32 0x3727C5AC#32)) (asRow128_apply v (rowOf128 i)).symm

theorem hidden_eq (agg h : (⟨S50000x128, .f32⟩ : BufTy).Contents (Elt Ideal)) (d : (⟨S50000, .f32⟩ : BufTy).Contents (Elt Ideal))
    (b γ β μ v : (⟨S128, .f32⟩ : BufTy).Contents (Elt Ideal)) :
    leaky (bnAffine (convOut128 agg h d b) γ β μ v)
      = hidden2d agg h (asCol d) (asRow128 b) (asRow128 γ) (asRow128 β) (asRow128 μ) (asRow128 v) := by
  funext i
  have hz : bnAffine (convOut128 agg h d b) γ β μ v i
      = bnAt (convAt (agg i) (h i) (asCol d (colOf128 i)) (asRow128 b (rowOf128 i)))
          (asRow128 γ (rowOf128 i)) (asRow128 β (rowOf128 i)) (asRow128 μ (rowOf128 i)) (asRow128 v (rowOf128 i)) := by
    show ((((agg i + h i * colBcast128 d i) + rowBcast128 b i) - rowBcast128 μ i)
        * rowBcast128 (F := Ideal) (Host.rsqrt (F := Ideal) (addf v (broadcastInDim S128 ![] bcast_S_S128 (constant S_ .f32 0x3727C5AC#32)))) i)
        * rowBcast128 γ i + rowBcast128 β i = _
    rw [rsqrtRow_apply]
    unfold colBcast128 rowBcast128
    rw [spreadCol128_apply, spreadRow128_apply, spreadRow128_apply, spreadRow128_apply, spreadRow128_apply]
    rfl
  show Scalar.select (FloatOps.cmpf (F := Ideal) (φ := .f32) .ogt (bnAffine (convOut128 agg h d b) γ β μ v i)
        (broadcastInDim S50000x128 ![] bcast_S_S50000x128 (constant (F := Ideal) S_ .f32 0x00000000#32) i))
      (bnAffine (convOut128 agg h d b) γ β μ v i)
      (broadcastInDim S50000x128 ![] bcast_S_S50000x128 (constant (F := Ideal) S_ .f32 0x3DCCCCCD#32) i
        * bnAffine (convOut128 agg h d b) γ β μ v i) = _
  rw [splatAll128_apply, splatAll128_apply, hz]
  rfl

theorem last_eq (agg h : (⟨S50000x64, .f32⟩ : BufTy).Contents (Elt Ideal)) (d : (⟨S50000, .f32⟩ : BufTy).Contents (Elt Ideal))
    (b : (⟨S64, .f32⟩ : BufTy).Contents (Elt Ideal)) :
    convOut64 agg h d b = last2d agg h (asCol d) (asRow64 b) := by
  funext i
  show (agg i + h i * colBcast64 d i) + rowBcast64 b i = _
  unfold colBcast64 rowBcast64
  rw [spreadCol64_apply, spreadRow64_apply]
  rfl

/-- A hidden layer from its input: the entry-by-entry form over the aggregate of the product. -/
theorem hidden_as2d (x : (⟨S50000x128, .f32⟩ : BufTy).Contents (Elt Ideal)) (e : (⟨S2x800000, .i32⟩ : BufTy).Contents (Elt Ideal))
    (W : (⟨S128x128, .f32⟩ : BufTy).Contents (Elt Ideal)) (b γ β μ v : (⟨S128, .f32⟩ : BufTy).Contents (Elt Ideal)) :
    hidden x e W b γ β μ v
      = hidden2d (aggregate128 (matmul128 x W) (srcOf e) (dstOf e) (edgeCoef (srcOf e) (dstOf e))) (matmul128 x W)
          (asCol (selfScale (dstOf e))) (asRow128 b) (asRow128 γ) (asRow128 β) (asRow128 μ) (asRow128 v) := by
  unfold hidden conv128
  rw [dot128_eq, hidden_eq]

/-- The last convolution from its input, likewise. -/
theorem conv64_as2d (x : (⟨S50000x128, .f32⟩ : BufTy).Contents (Elt Ideal)) (e : (⟨S2x800000, .i32⟩ : BufTy).Contents (Elt Ideal))
    (W : (⟨S128x64, .f32⟩ : BufTy).Contents (Elt Ideal)) (b : (⟨S64, .f32⟩ : BufTy).Contents (Elt Ideal)) :
    conv64 x e W b
      = last2d (aggregate64 (matmul64 x W) (srcOf e) (dstOf e) (edgeCoef (srcOf e) (dstOf e))) (matmul64 x W)
          (asCol (selfScale (dstOf e))) (asRow64 b) := by
  unfold conv64
  rw [dot64_eq, last_eq]

end Cert.Gcn

end
-- ==== Proof.Keep.lean ====
/-
  Which buffers a segment of @main leaves alone. @main is ten segments — four stretches of host operations and six
  kernel regions — and the contents at each boundary (`W0` … `W10`) are a fold from the launch memory. A host stretch
  changes only the buffers its operations write; a region changes only its output window's array (an input window's
  array is staged and never written back). So an edge list, the per-edge coefficient, the self-loop scale and every
  argument read late in the program hold, where they are read, what they held where they were made.
-/
import proofs.«420302_j43971875177077_3_alg».proof.Proof.Gen.KernelIdeal.Frame

set_option maxRecDepth 16384

noncomputable section

namespace Cert.Gcn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of a literal stretch writes the buffer: the stretch's operations are walked, each result buffer
    told apart from the given one by its number. -/
macro "not_written" : tactic => `(tactic| (
  refine List.forall_iff_forall_mem.mp ?_
  simp only [hostOps0, hostOps1, hostOps3, hostOps5, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## One segment at a time -/

theorem keep_h0 (b : Ref sig .tc)
    (h : ∀ op ∈ (hostOps0 : List (HloOp τ sig (Elt F))), (Proc.devRef .tc b : DevRef τ sig) ∉ op.writes) :
    W1 m ρ c (Proc.devRef .tc b) = W0 m ρ c (Proc.devRef .tc b) :=
  StableHlo.after_of_forall_not_mem _ _ h

theorem keep_h1 (b : Ref sig .tc)
    (h : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem _ _ h

theorem keep_h3 (b : Ref sig .tc)
    (h : ∀ op ∈ (hostOps3 : List (HloOp τ sig (Elt F))), (Proc.devRef .tc b : DevRef τ sig) ∉ op.writes) :
    W6 m ρ c (Proc.devRef .tc b) = W5 m ρ c (Proc.devRef .tc b) :=
  StableHlo.after_of_forall_not_mem _ _ h

theorem keep_h5 (b : Ref sig .tc)
    (h : ∀ op ∈ (hostOps5 : List (HloOp τ sig (Elt F))), (Proc.devRef .tc b : DevRef τ sig) ∉ op.writes) :
    W9 m ρ c (Proc.devRef .tc b) = W8 m ρ c (Proc.devRef .tc b) :=
  StableHlo.after_of_forall_not_mem _ _ h

/-- The self-loop scale is an input window of the first combine region: staged, never written back. -/
theorem keep_r1_scale : W4 m ρ c (Proc.devRef .tc main_v27) = W3 m ρ c (Proc.devRef .tc main_v27) :=
  (W4_arr m ρ c 2).trans (((dat1 (V3 m ρ) c).arrAt_in 2 rfl _).trans (A_eq1 (V3 m ρ) c 2))

/-- And of the second. -/
theorem keep_r3_scale : W7 m ρ c (Proc.devRef .tc main_v27) = W6 m ρ c (Proc.devRef .tc main_v27) :=
  (W7_arr m ρ c 2).trans (((dat3 (V6 m ρ) c).arrAt_in 2 rfl _).trans (A_eq3 (V6 m ρ) c 2))

/-! ## Stretches of segments -/

/-- Through the first layer's gather-scatter stretch and the two regions after it. -/
theorem keep_2_5 (b : Ref sig .tc)
    (h : ∀ op ∈ (hostOps1 : List (HloOp τ sig (Elt F))), (Proc.devRef .tc b : DevRef τ sig) ∉ op.writes)
    (h1 : ∀ w, Pipeline.arrRef spec1 w ≠ b) (h2 : ∀ w, Pipeline.arrRef spec2 w ≠ b) :
    W5 m ρ c (Proc.devRef .tc b) = W2 m ρ c (Proc.devRef .tc b) :=
  (W5_of_ne m ρ c b h2).trans ((W4_of_ne m ρ c b h1).trans (keep_h1 m ρ c b h))

/-- Through the second layer's gather-scatter stretch and the two regions after it. -/
theorem keep_5_8 (b : Ref sig .tc)
    (h : ∀ op ∈ (hostOps3 : List (HloOp τ sig (Elt F))), (Proc.devRef .tc b : DevRef τ sig) ∉ op.writes)
    (h3 : ∀ w, Pipeline.arrRef spec3 w ≠ b) (h4 : ∀ w, Pipeline.arrRef spec4 w ≠ b) :
    W8 m ρ c (Proc.devRef .tc b) = W5 m ρ c (Proc.devRef .tc b) :=
  (W8_of_ne m ρ c b h4).trans ((W7_of_ne m ρ c b h3).trans (keep_h3 m ρ c b h))

/-- From the launch to the first matmul region's exit. -/
theorem keep_0_2 (b : Ref sig .tc)
    (h : ∀ op ∈ (hostOps0 : List (HloOp τ sig (Elt F))), (Proc.devRef .tc b : DevRef τ sig) ∉ op.writes)
    (h0 : ∀ w, Pipeline.arrRef spec0 w ≠ b) :
    W2 m ρ c (Proc.devRef .tc b) = m ((c : Thread nD τ).loc b) :=
  (W2_of_ne m ρ c b h0).trans (keep_h0 m ρ c b h)

/-! ## The edge lists, the coefficient and the scale, where each layer reads them -/

theorem src_W2 : W2 m ρ c (Proc.devRef .tc main_v1) = W1 m ρ c (Proc.devRef .tc main_v1) := W2_of_ne m ρ c main_v1 (by decide)
theorem dst_W2 : W2 m ρ c (Proc.devRef .tc main_v3) = W1 m ρ c (Proc.devRef .tc main_v3) := W2_of_ne m ρ c main_v3 (by decide)
theorem coef_W2 : W2 m ρ c (Proc.devRef .tc main_v25) = W1 m ρ c (Proc.devRef .tc main_v25) := W2_of_ne m ρ c main_v25 (by decide)

theorem src_W5 : W5 m ρ c (Proc.devRef .tc main_v1) = W1 m ρ c (Proc.devRef .tc main_v1) :=
  (keep_2_5 m ρ c main_v1 (by not_written) (by decide) (by decide)).trans (src_W2 m ρ c)
theorem dst_W5 : W5 m ρ c (Proc.devRef .tc main_v3) = W1 m ρ c (Proc.devRef .tc main_v3) :=
  (keep_2_5 m ρ c main_v3 (by not_written) (by decide) (by decide)).trans (dst_W2 m ρ c)
theorem coef_W5 : W5 m ρ c (Proc.devRef .tc main_v25) = W1 m ρ c (Proc.devRef .tc main_v25) :=
  (keep_2_5 m ρ c main_v25 (by not_written) (by decide) (by decide)).trans (coef_W2 m ρ c)

theorem src_W8 : W8 m ρ c (Proc.devRef .tc main_v1) = W1 m ρ c (Proc.devRef .tc main_v1) :=
  (keep_5_8 m ρ c main_v1 (by not_written) (by decide) (by decide)).trans (src_W5 m ρ c)
theorem dst_W8 : W8 m ρ c (Proc.devRef .tc main_v3) = W1 m ρ c (Proc.devRef .tc main_v3) :=
  (keep_5_8 m ρ c main_v3 (by not_written) (by decide) (by decide)).trans (dst_W5 m ρ c)
theorem coef_W8 : W8 m ρ c (Proc.devRef .tc main_v25) = W1 m ρ c (Proc.devRef .tc main_v25) :=
  (keep_5_8 m ρ c main_v25 (by not_written) (by decide) (by decide)).trans (coef_W5 m ρ c)

theorem scale_W3 : W3 m ρ c (Proc.devRef .tc main_v27) = W1 m ρ c (Proc.devRef .tc main_v27) :=
  (keep_h1 m ρ c main_v27 (by not_written)).trans (W2_of_ne m ρ c main_v27 (by decide))
theorem scale_W6 : W6 m ρ c (Proc.devRef .tc main_v27) = W1 m ρ c (Proc.devRef .tc main_v27) :=
  (keep_h3 m ρ c main_v27 (by not_written)).trans ((W5_of_ne m ρ c main_v27 (by decide)).trans
    ((keep_r1_scale m ρ c).trans (scale_W3 m ρ c)))
theorem scale_W9 : W9 m ρ c (Proc.devRef .tc main_v27) = W1 m ρ c (Proc.devRef .tc main_v27) :=
  (keep_h5 m ρ c main_v27 (by not_written)).trans ((W8_of_ne m ρ c main_v27 (by decide)).trans
    ((keep_r3_scale m ρ c).trans (scale_W6 m ρ c)))

/-! ## Each matmul's product, where its layer's combine region reads it again -/

theorem h1_W3 : W3 m ρ c (Proc.devRef .tc main_v28) = W2 m ρ c (Proc.devRef .tc main_v28) := keep_h1 m ρ c main_v28 (by not_written)
theorem h2_W6 : W6 m ρ c (Proc.devRef .tc main_v48) = W5 m ρ c (Proc.devRef .tc main_v48) := keep_h3 m ρ c main_v48 (by not_written)
theorem h3_W9 : W9 m ρ c (Proc.devRef .tc main_v68) = W8 m ρ c (Proc.devRef .tc main_v68) := keep_h5 m ρ c main_v68 (by not_written)

/-! ## The arguments, where each is read -/

theorem arg0_W1 : W1 m ρ c (Proc.devRef .tc main_arg0) = m ((c : Thread nD τ).loc main_arg0) := keep_h0 m ρ c main_arg0 (by not_written)
theorem arg1_W0 : W0 m ρ c (Proc.devRef .tc main_arg1) = m ((c : Thread nD τ).loc main_arg1) := rfl
theorem arg2_W1 : W1 m ρ c (Proc.devRef .tc main_arg2) = m ((c : Thread nD τ).loc main_arg2) := keep_h0 m ρ c main_arg2 (by not_written)

theorem arg3_W2 : W2 m ρ c (Proc.devRef .tc main_arg3) = m ((c : Thread nD τ).loc main_arg3) := keep_0_2 m ρ c main_arg3 (by not_written) (by decide)
theorem arg4_W2 : W2 m ρ c (Proc.devRef .tc main_arg4) = m ((c : Thread nD τ).loc main_arg4) := keep_0_2 m ρ c main_arg4 (by not_written) (by decide)
theorem arg5_W2 : W2 m ρ c (Proc.devRef .tc main_arg5) = m ((c : Thread nD τ).loc main_arg5) := keep_0_2 m ρ c main_arg5 (by not_written) (by decide)
theorem arg6_W2 : W2 m ρ c (Proc.devRef .tc main_arg6) = m ((c : Thread nD τ).loc main_arg6) := keep_0_2 m ρ c main_arg6 (by not_written) (by decide)
theorem arg7_W2 : W2 m ρ c (Proc.devRef .tc main_arg7) = m ((c : Thread nD τ).loc main_arg7) := keep_0_2 m ρ c main_arg7 (by not_written) (by decide)

theorem arg8_W4 : W4 m ρ c (Proc.devRef .tc main_arg8) = m ((c : Thread nD τ).loc main_arg8) :=
  (W4_of_ne m ρ c main_arg8 (by decide)).trans ((keep_h1 m ρ c main_arg8 (by not_written)).trans
    (keep_0_2 m ρ c main_arg8 (by not_written) (by decide)))

theorem arg9_W5 : W5 m ρ c (Proc.devRef .tc main_arg9) = m ((c : Thread nD τ).loc main_arg9) :=
  (keep_2_5 m ρ c main_arg9 (by not_written) (by decide) (by decide)).trans (keep_0_2 m ρ c main_arg9 (by not_written) (by decide))
theorem arg10_W5 : W5 m ρ c (Proc.devRef .tc main_arg10) = m ((c : Thread nD τ).loc main_arg10) :=
  (keep_2_5 m ρ c main_arg10 (by not_written) (by decide) (by decide)).trans (keep_0_2 m ρ c main_arg10 (by not_written) (by decide))
theorem arg11_W5 : W5 m ρ c (Proc.devRef .tc main_arg11) = m ((c : Thread nD τ).loc main_arg11) :=
  (keep_2_5 m ρ c main_arg11 (by not_written) (by decide) (by decide)).trans (keep_0_2 m ρ c main_arg11 (by not_written) (by decide))
theorem arg12_W5 : W5 m ρ c (Proc.devRef .tc main_arg12) = m ((c : Thread nD τ).loc main_arg12) :=
  (keep_2_5 m ρ c main_arg12 (by not_written) (by decide) (by decide)).trans (keep_0_2 m ρ c main_arg12 (by not_written) (by decide))
theorem arg13_W5 : W5 m ρ c (Proc.devRef .tc main_arg13) = m ((c : Thread nD τ).loc main_arg13) :=
  (keep_2_5 m ρ c main_arg13 (by not_written) (by decide) (by decide)).trans (keep_0_2 m ρ c main_arg13 (by not_written) (by decide))

theorem arg14_W7 : W7 m ρ c (Proc.devRef .tc main_arg14) = m ((c : Thread nD τ).loc main_arg14) :=
  (W7_of_ne m ρ c main_arg14 (by decide)).trans ((keep_h3 m ρ c main_arg14 (by not_written)).trans
    ((keep_2_5 m ρ c main_arg14 (by not_written) (by decide) (by decide)).trans
      (keep_0_2 m ρ c main_arg14 (by not_written) (by decide))))

theorem arg15_W8 : W8 m ρ c (Proc.devRef .tc main_arg15) = m ((c : Thread nD τ).loc main_arg15) :=
  (keep_5_8 m ρ c main_arg15 (by not_written) (by decide) (by decide)).trans
    ((keep_2_5 m ρ c main_arg15 (by not_written) (by decide) (by decide)).trans
      (keep_0_2 m ρ c main_arg15 (by not_written) (by decide)))

end Cert.Gcn

end
-- ==== Proof.HostStretch.lean ====
/-
  What the four stretches of host operations compute, read off the boundary contents.

  Before the first product the host takes the two rows of the edge list, counts the edges into each node, and
  forms the edges' coefficients and the self loops' weights. Between a product and its combine it forms the
  aggregate (every edge's coefficient times its source's row, added into its target's row) and lays the layer's
  per-feature vectors out as rows `[1, n]`. The rows, and the self loops' column `[50000, 1]`, are made by a
  reshape of a vector; a reshape that only adds a unit axis reads the vector at the other coordinate, as the
  broadcast along that axis does, so each is the broadcast the specification names.
-/
import proofs.«420302_j43971875177077_3_alg».proof.Proof.Gen.KernelIdeal.Frame
import proofs.«420302_j43971875177077_3_alg».proof.Proof.Stages

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

/-! ## A reshape that only adds a unit axis is a broadcast along the other axis

The kernel's host code makes its `[1, n]` rows and its `[n, 1]` column from a vector `[n]` by a reshape; the
specification makes them by a broadcast that sends the vector's one axis to the row's second axis, or to the column's
first. Both read the vector at the one coordinate that is not the unit axis's. -/

section Reshapes
variable {α : Type}

/-- A vector `[a]` reshaped to a row `[1, a]` is the vector broadcast along the row's second axis: at `(u, i)`
    both read the vector at `i`. -/
theorem shapeCast_row_eq_broadcastInDim {a : ℕ} (x : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ ![1] hb x := by
  funext j
  obtain ⟨u, i, rfl⟩ : ∃ (u : Fin 1) (i : Fin a), j = ValueIdx.ix2 u i := ⟨j 0, j 1, ValueIdx.eq_ix2 j⟩
  -- the reshape keeps the row-major position: (u, i) sits at u · a + i = i, as i does in the vector
  have hcast : shapeCast ⟨2, ![1, a]⟩ x hc (ValueIdx.ix2 u i) = x (ValueIdx.ix1 i) :=
    shapeCast_apply x hc (ValueIdx.ix2 u i) (ValueIdx.ix1 i) (by
      have hu : u.val = 0 := by omega
      rw [Shape.rowMajor_val_two, Shape.rowMajor_val_one]
      show i.val = u.val * a + i.val
      rw [hu, Nat.zero_mul, Nat.zero_add])
  -- the broadcast reads the vector's axis at the row's second coordinate (which is 0 anyway when a = 1)
  have hbc : broadcastInDim ⟨2, ![1, a]⟩ ![1] hb x (ValueIdx.ix2 u i) = x (ValueIdx.ix1 i) :=
    broadcastInDim_apply (![1] : Fin 1 → Fin 2) hb x (ValueIdx.ix2 u i) (ValueIdx.ix1 i) (by
      intro k
      match k with
      | ⟨0, _⟩ =>
        show i.val = if a = 1 then 0 else i.val
        split
        · have := i.isLt; omega
        · rfl)
  exact hcast.trans hbc.symm

/-- A vector `[a]` reshaped to a column `[a, 1]` is the vector broadcast along the column's first axis: at
    `(i, u)` both read the vector at `i`. -/
theorem shapeCast_col_eq_broadcastInDim {a : ℕ} (x : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ ![0] hb x := by
  funext j
  obtain ⟨i, u, rfl⟩ : ∃ (i : Fin a) (u : Fin 1), j = ValueIdx.ix2 i u := ⟨j 0, j 1, ValueIdx.eq_ix2 j⟩
  -- the reshape keeps the row-major position: (i, u) sits at i · 1 + u = i, as i does in the vector
  have hcast : shapeCast ⟨2, ![a, 1]⟩ x hc (ValueIdx.ix2 i u) = x (ValueIdx.ix1 i) :=
    shapeCast_apply x hc (ValueIdx.ix2 i u) (ValueIdx.ix1 i) (by
      have hu : u.val = 0 := by omega
      rw [Shape.rowMajor_val_two, Shape.rowMajor_val_one]
      show i.val = i.val * 1 + u.val
      rw [hu, Nat.mul_one, Nat.add_zero])
  -- the broadcast reads the vector's axis at the column's first coordinate (which is 0 anyway when a = 1)
  have hbc : broadcastInDim ⟨2, ![a, 1]⟩ ![0] hb x (ValueIdx.ix2 i u) = x (ValueIdx.ix1 i) :=
    broadcastInDim_apply (![0] : Fin 1 → Fin 2) hb x (ValueIdx.ix2 i u) (ValueIdx.ix1 i) (by
      intro k
      match k with
      | ⟨0, _⟩ =>
        show i.val = if a = 1 then 0 else i.val
        split
        · have := i.isLt; omega
        · rfl)
  exact hcast.trans hbc.symm

end Reshapes

variable (m : (ℓ : Loc nD τ sig) → Buf (Elt Ideal) ℓ) (ρ : Dev nD → PrngReg) (c : Dev nD)

/-! ## Before the first product: the edge list's two rows, the edges' coefficients, the self loops' weights -/

/-- The source node of every edge. -/
theorem src_W1 : W1 m ρ c (Proc.devRef .tc main_v1) = srcOf (m ((c : Thread nD τ).loc main_arg1)) := by
  show StableHlo.after hostOps0 (W0 m ρ c) (Proc.devRef .tc main_v1) = _
  after_results_simp
  rfl

/-- The target node of every edge. -/
theorem dst_W1 : W1 m ρ c (Proc.devRef .tc main_v3) = dstOf (m ((c : Thread nD τ).loc main_arg1)) := by
  show StableHlo.after hostOps0 (W0 m ρ c) (Proc.devRef .tc main_v3) = _
  after_results_simp
  rfl

/-- The coefficient of every edge: the product of its end nodes' `rsqrt (1 + in-degree)`. -/
theorem coef_W1 : W1 m ρ c (Proc.devRef .tc main_v25) = edgeCoef (srcOf (m ((c : Thread nD τ).loc main_arg1))) (dstOf (m ((c : Thread nD τ).loc main_arg1))) := by
  show StableHlo.after hostOps0 (W0 m ρ c) (Proc.devRef .tc main_v25) = _
  after_results_simp
  rfl

/-- The self loops' weights `1 / (1 + in-degree)` as a column: the host reshapes the vector `[50000]` to
    `[50000, 1]`, which is its broadcast along the column's first axis. -/
theorem scale_W1 : W1 m ρ c (Proc.devRef .tc main_v27) = broadcastInDim Cert.ReferenceIdeal.S50000x1 ![0] Cert.ReferenceIdeal.Gen.bcast_S50000_S50000x1_0 (selfScale (dstOf (m ((c : Thread nD τ).loc main_arg1)))) := by
  show StableHlo.after hostOps0 (W0 m ρ c) (Proc.devRef .tc main_v27) = _
  after_results_simp
  refine (shapeCast_col_eq_broadcastInDim (a := 50000) _ _ Cert.ReferenceIdeal.Gen.bcast_S50000_S50000x1_0).trans ?_
  rfl

/-! ## Between the first product and the first combine: the aggregate over the edges, and the per-feature vectors as rows -/

/-- Every edge's coefficient times its source's row of the product, added into its target's row. -/
theorem agg_W3 : W3 m ρ c (Proc.devRef .tc main_v41) = aggregate128 (W2 m ρ c (Proc.devRef .tc main_v28)) (W2 m ρ c (Proc.devRef .tc main_v1)) (W2 m ρ c (Proc.devRef .tc main_v3)) (W2 m ρ c (Proc.devRef .tc main_v25)) := by
  show StableHlo.after hostOps1 (W2 m ρ c) (Proc.devRef .tc main_v41) = _
  after_results_simp
  rfl

theorem bias_W3 : W3 m ρ c (Proc.devRef .tc main_v42) = broadcastInDim Cert.ReferenceIdeal.S1x128 ![1] Cert.ReferenceIdeal.Gen.bcast_S128_S1x128_1 (W2 m ρ c (Proc.devRef .tc main_arg3)) := by
  show StableHlo.after hostOps1 (W2 m ρ c) (Proc.devRef .tc main_v42) = _
  after_results_simp
  exact shapeCast_row_eq_broadcastInDim (a := 128) _ _ _

theorem gamma_W3 : W3 m ρ c (Proc.devRef .tc main_v43) = broadcastInDim Cert.ReferenceIdeal.S1x128 ![1] Cert.ReferenceIdeal.Gen.bcast_S128_S1x128_1 (W2 m ρ c (Proc.devRef .tc main_arg4)) := by
  show StableHlo.after hostOps1 (W2 m ρ c) (Proc.devRef .tc main_v43) = _
  after_results_simp
  exact shapeCast_row_eq_broadcastInDim (a := 128) _ _ _

theorem beta_W3 : W3 m ρ c (Proc.devRef .tc main_v44) = broadcastInDim Cert.ReferenceIdeal.S1x128 ![1] Cert.ReferenceIdeal.Gen.bcast_S128_S1x128_1 (W2 m ρ c (Proc.devRef .tc main_arg5)) := by
  show StableHlo.after hostOps1 (W2 m ρ c) (Proc.devRef .tc main_v44) = _
  after_results_simp
  exact shapeCast_row_eq_broadcastInDim (a := 128) _ _ _

theorem mean_W3 : W3 m ρ c (Proc.devRef .tc main_v45) = broadcastInDim Cert.ReferenceIdeal.S1x128 ![1] Cert.ReferenceIdeal.Gen.bcast_S128_S1x128_1 (W2 m ρ c (Proc.devRef .tc main_arg6)) := by
  show StableHlo.after hostOps1 (W2 m ρ c) (Proc.devRef .tc main_v45) = _
  after_results_simp
  exact shapeCast_row_eq_broadcastInDim (a := 128) _ _ _

theorem var_W3 : W3 m ρ c (Proc.devRef .tc main_v46) = broadcastInDim Cert.ReferenceIdeal.S1x128 ![1] Cert.ReferenceIdeal.Gen.bcast_S128_S1x128_1 (W2 m ρ c (Proc.devRef .tc main_arg7)) := by
  show StableHlo.after hostOps1 (W2 m ρ c) (Proc.devRef .tc main_v46) = _
  after_results_simp
  exact shapeCast_row_eq_broadcastInDim (a := 128) _ _ _

/-! ## Between the second product and the second combine -/

theorem agg_W6 : W6 m ρ c (Proc.devRef .tc main_v61) = aggregate128 (W5 m ρ c (Proc.devRef .tc main_v48)) (W5 m ρ c (Proc.devRef .tc main_v1)) (W5 m ρ c (Proc.devRef .tc main_v3)) (W5 m ρ c (Proc.devRef .tc main_v25)) := by
  show StableHlo.after hostOps3 (W5 m ρ c) (Proc.devRef .tc main_v61) = _
  after_results_simp
  rfl

theorem bias_W6 : W6 m ρ c (Proc.devRef .tc main_v62) = broadcastInDim Cert.ReferenceIdeal.S1x128 ![1] Cert.ReferenceIdeal.Gen.bcast_S128_S1x128_1 (W5 m ρ c (Proc.devRef .tc main_arg9)) := by
  show StableHlo.after hostOps3 (W5 m ρ c) (Proc.devRef .tc main_v62) = _
  after_results_simp
  exact shapeCast_row_eq_broadcastInDim (a := 128) _ _ _

theorem gamma_W6 : W6 m ρ c (Proc.devRef .tc main_v63) = broadcastInDim Cert.ReferenceIdeal.S1x128 ![1] Cert.ReferenceIdeal.Gen.bcast_S128_S1x128_1 (W5 m ρ c (Proc.devRef .tc main_arg10)) := by
  show StableHlo.after hostOps3 (W5 m ρ c) (Proc.devRef .tc main_v63) = _
  after_results_simp
  exact shapeCast_row_eq_broadcastInDim (a := 128) _ _ _

theorem beta_W6 : W6 m ρ c (Proc.devRef .tc main_v64) = broadcastInDim Cert.ReferenceIdeal.S1x128 ![1] Cert.ReferenceIdeal.Gen.bcast_S128_S1x128_1 (W5 m ρ c (Proc.devRef .tc main_arg11)) := by
  show StableHlo.after hostOps3 (W5 m ρ c) (Proc.devRef .tc main_v64) = _
  after_results_simp
  exact shapeCast_row_eq_broadcastInDim (a := 128) _ _ _

theorem mean_W6 : W6 m ρ c (Proc.devRef .tc main_v65) = broadcastInDim Cert.ReferenceIdeal.S1x128 ![1] Cert.ReferenceIdeal.Gen.bcast_S128_S1x128_1 (W5 m ρ c (Proc.devRef .tc main_arg12)) := by
  show StableHlo.after hostOps3 (W5 m ρ c) (Proc.devRef .tc main_v65) = _
  after_results_simp
  exact shapeCast_row_eq_broadcastInDim (a := 128) _ _ _

theorem var_W6 : W6 m ρ c (Proc.devRef .tc main_v66) = broadcastInDim Cert.ReferenceIdeal.S1x128 ![1] Cert.ReferenceIdeal.Gen.bcast_S128_S1x128_1 (W5 m ρ c (Proc.devRef .tc main_arg13)) := by
  show StableHlo.after hostOps3 (W5 m ρ c) (Proc.devRef .tc main_v66) = _
  after_results_simp
  exact shapeCast_row_eq_broadcastInDim (a := 128) _ _ _

/-! ## Between the third product and the last combine -/

theorem agg_W9 : W9 m ρ c (Proc.devRef .tc main_v81) = aggregate64 (W8 m ρ c (Proc.devRef .tc main_v68)) (W8 m ρ c (Proc.devRef .tc main_v1)) (W8 m ρ c (Proc.devRef .tc main_v3)) (W8 m ρ c (Proc.devRef .tc main_v25)) := by
  show StableHlo.after hostOps5 (W8 m ρ c) (Proc.devRef .tc main_v81) = _
  after_results_simp
  rfl

theorem bias_W9 : W9 m ρ c (Proc.devRef .tc main_v82) = broadcastInDim Cert.ReferenceIdeal.S1x64 ![1] Cert.ReferenceIdeal.Gen.bcast_S64_S1x64_1 (W8 m ρ c (Proc.devRef .tc main_arg15)) := by
  show StableHlo.after hostOps5 (W8 m ρ c) (Proc.devRef .tc main_v82) = _
  after_results_simp
  exact shapeCast_row_eq_broadcastInDim (a := 64) _ _ _

end Cert.Gcn

end
-- ==== Proof.RegionMM0.lean ====
/-
  A matrix product x · W of node features x : [50000, 128] with weights W : [128, 128], computed in 25 blocks.

  The 50000 rows are cut into 25 blocks of 2000. Point t of the grid takes block t of x (rows 2000 · t … 2000 · t + 1999)
  and the whole of W, and stores their product, a [2000, 128] block, as block t of the output: entry (p, q) of that
  block is ∑ k, x[2000 · t + p, k] · W[k, q]. Row r of the product reads only row r of x, so the stored block is the
  restriction of the whole product to the block's rows. The 25 blocks of 2000 rows tile the 50000 rows, so after the
  last point the output array is the whole product, entry by entry.
-/
import proofs.«420302_j43971875177077_3_alg».proof.Proof.Gen.KernelIdeal.Frame
import proofs.«420302_j43971875177077_3_alg».proof.Proof.Stages

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

/-! ## One block's product, entry by entry -/

/-- The left operand is read at the output's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand is read at the summation index as its column. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand is read at the summation index as its row. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand is read at the output's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of what the body stores: the sum over k of x0[p, k] · x1[k, q] (the casts to bf16 are the identity on
    extended reals and the accumulator is zero). -/
theorem k0_pay1_at (x0 : Vec Ideal S2000x128 .f32) (x1 : Vec Ideal S128x128 .f32) (p : Fin 2000) (q : Fin 128) :
    k0_pay1 (F := Ideal) x0 x1 (ValueIdx.ix2 p q) = ∑ k : Fin 128, x0 (ValueIdx.ix2 p k) * x1 (ValueIdx.ix2 k q) := by
  unfold k0_pay1
  refine (Ideal.matmul_constant_zero_apply dot_S2000x128_S128x128_S2000x128_1_0_0_1_n_n none _ _ (ValueIdx.ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p q) ((ValueIdx.contrEquiv1 dot_S2000x128_S128x128_S2000x128_1_0_0_1_n_n 128 rfl rfl).symm k) = ValueIdx.ix2 p k := funext fun a => Fin.ext (by
    match a with
    | ⟨0, _⟩ => exact lhs_mm0_0 _ _
    | ⟨1, _⟩ => exact (lhs_mm0_1 _ _).trans hk)
  have er : dot_S2000x128_S128x128_S2000x128_1_0_0_1_n_n.rhsIdx (ValueIdx.ix2 p q) ((ValueIdx.contrEquiv1 dot_S2000x128_S128x128_S2000x128_1_0_0_1_n_n 128 rfl rfl).symm k) = ValueIdx.ix2 k q := funext fun a => Fin.ext (by
    match a with
    | ⟨0, _⟩ => exact (rhs_mm0_0 _ _).trans hk
    | ⟨1, _⟩ => exact rhs_mm0_1 _ _)
  show x0 (dot_S2000x128_S128x128_S2000x128_1_0_0_1_n_n.lhsIdx (ValueIdx.ix2 p q) ((ValueIdx.contrEquiv1 dot_S2000x128_S128x128_S2000x128_1_0_0_1_n_n 128 rfl rfl).symm k)) * x1 (dot_S2000x128_S128x128_S2000x128_1_0_0_1_n_n.rhsIdx (ValueIdx.ix2 p q) ((ValueIdx.contrEquiv1 dot_S2000x128_S128x128_S2000x128_1_0_0_1_n_n 128 rfl rfl).symm k)) = _
  rw [el, er]

/-! ## Where the blocks sit in their arrays -/

theorem offsets_zero_mm0 : (![0, 0] : Fin 2 → Nat) = fun _ => 0 := funext fun a => by fin_cases a <;> rfl

/-- The same entry at any index of the block. -/
theorem k0_pay1_apply (x0 : Vec Ideal S2000x128 .f32) (x1 : Vec Ideal S128x128 .f32) (j : S2000x128.Idx) :
    k0_pay1 (F := Ideal) x0 x1 j = ∑ k : Fin 128, x0 (ValueIdx.ix2 (n0 := 2000) (n1 := 128) (j 0) k) * x1 (ValueIdx.ix2 (n0 := 128) (n1 := 128) k (j 1)) := by
  obtain ⟨p, q, rfl⟩ : ∃ (p : Fin 2000) (q : Fin 128), j = ValueIdx.ix2 p q := ⟨j 0, j 1, ValueIdx.eq_ix2 j⟩
  exact k0_pay1_at x0 x1 p q

/-- The printed index maps over the grid: point t takes row block t of the left operand, the whole right operand, and
    writes row block t of the output. -/
theorem blockIndex_mm0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region

variable (V : (c : Dev nD) → (b : Ref sig .tc) → Buf (Elt Ideal) ((c : Thread nD τ).loc b)) (c : Dev nD)

/-- What point t writes back is block t of the whole product: row r of the product reads only row r of the left operand,
    and the block's row p is row 2000 · t + p of the array. -/
theorem flushed_mm0 (t : Fin cfg0.N) :
    (dat0 V c).flushed 2 t = ((cfg0.win 2).blk t).view.read (Elt Ideal) (matmul128 (V c main_arg0) (V c main_arg2)) := by
  show (cfg0.win 2).cut (grid0.coords t) ((dat0 V c).after 2 t) = _
  rw [after0_2]
  unfold out0_2
  rw [View.canon_unit_zero offsets_zero_mm0]
  simp only [View.ld_unit_zero (S := S2000x128) offsets_zero_mm0, View.ld_unit_zero (S := S128x128) offsets_zero_mm0]
  obtain ⟨e0, e1, e2, e3, e4, e5⟩ := blockIndex_mm0 t
  funext j
  refine (k0_pay1_apply (iblk0 V c 0 t) (iblk0 V c 1 t) j).trans ?_
  show _ = matmul128 (V c main_arg0) (V c main_arg2) (((cfg0.win 2).blk t).view.emb j)
  unfold matmul128
  refine Finset.sum_congr rfl fun k _ => ?_
  show @HMul.hMul EReal EReal EReal _ (V c main_arg0 (((cfg0.win 0).blk t).view.emb (ValueIdx.ix2 (n0 := 2000) (n1 := 128) (j 0) k))) (V c main_arg2 (((cfg0.win 1).blk t).view.emb (ValueIdx.ix2 (n0 := 128) (n1 := 128) k (j 1)))) = _
  refine congrArg₂ (fun a b : EReal => a * b) (congrArg (V c main_arg0 : S50000x128.Idx → EReal) ?_) (congrArg (V c main_arg2 : S128x128.Idx → EReal) ?_)
  · funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
end Region

/-- An index of the output array is in point t's block iff each coordinate is in the block's range on its axis. -/
theorem mem_block_mm0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Every row r lies in the block of point r / 2000: the 25 blocks of 2000 rows tile the 50000 rows. -/
theorem cover_mm0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  obtain ⟨e0, e1, e2, e3, e4, e5⟩ := blockIndex_mm0 t
  have ht : (t : Nat) = (i 0).val / 2000 := rfl
  refine ⟨t, flush0_2 t, ?_⟩
  rw [mem_block_mm0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

section Region

variable (V : (c : Dev nD) → (b : Ref sig .tc) → Buf (Elt Ideal) ((c : Thread nD τ).loc b)) (c : Dev nD)

/-- The region's output array after all 25 points: the whole product. -/
theorem region0_out : (dat0 V c).arrAt 2 cfg0.N = matmul128 (V c main_arg0) (V c main_arg2) :=
  (dat0 V c).arrAt_eq_of_cover 2 _ (fun t _ => flushed_mm0 V c t) cover_mm0

end Region

end Cert.Gcn

end
-- ==== Proof.RegionMM2.lean ====
/-
  A matrix product x · W of node features x : [50000, 128] with weights W : [128, 128], computed in 25 blocks.

  The 50000 rows are cut into 25 blocks of 2000. Point t of the grid takes block t of x (rows 2000 · t … 2000 · t + 1999)
  and the whole of W, and stores their product, a [2000, 128] block, as block t of the output: entry (p, q) of that
  block is ∑ k, x[2000 · t + p, k] · W[k, q]. Row r of the product reads only row r of x, so the stored block is the
  restriction of the whole product to the block's rows. The 25 blocks of 2000 rows tile the 50000 rows, so after the
  last point the output array is the whole product, entry by entry.
-/
import proofs.«420302_j43971875177077_3_alg».proof.Proof.Gen.KernelIdeal.Frame
import proofs.«420302_j43971875177077_3_alg».proof.Proof.Stages

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

/-! ## One block's product, entry by entry -/

/-- The left operand is read at the output's row. -/
theorem lhs_mm2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand is read at the summation index as its column. -/
theorem lhs_mm2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand is read at the summation index as its row. -/
theorem rhs_mm2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand is read at the output's column. -/
theorem rhs_mm2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of what the body stores: the sum over k of x0[p, k] · x1[k, q] (the casts to bf16 are the identity on
    extended reals and the accumulator is zero). -/
theorem k2_pay1_at (x0 : Vec Ideal S2000x128 .f32) (x1 : Vec Ideal S128x128 .f32) (p : Fin 2000) (q : Fin 128) :
    k2_pay1 (F := Ideal) x0 x1 (ValueIdx.ix2 p q) = ∑ k : Fin 128, x0 (ValueIdx.ix2 p k) * x1 (ValueIdx.ix2 k q) := by
  unfold k2_pay1
  rw [shapeCast_self]
  refine (Ideal.matmul_constant_zero_apply dot_S2000x128_S128x128_S2000x128_1_0_0_1_n_n none _ _ (ValueIdx.ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p q) ((ValueIdx.contrEquiv1 dot_S2000x128_S128x128_S2000x128_1_0_0_1_n_n 128 rfl rfl).symm k) = ValueIdx.ix2 p k := funext fun a => Fin.ext (by
    match a with
    | ⟨0, _⟩ => exact lhs_mm2_0 _ _
    | ⟨1, _⟩ => exact (lhs_mm2_1 _ _).trans hk)
  have er : dot_S2000x128_S128x128_S2000x128_1_0_0_1_n_n.rhsIdx (ValueIdx.ix2 p q) ((ValueIdx.contrEquiv1 dot_S2000x128_S128x128_S2000x128_1_0_0_1_n_n 128 rfl rfl).symm k) = ValueIdx.ix2 k q := funext fun a => Fin.ext (by
    match a with
    | ⟨0, _⟩ => exact (rhs_mm2_0 _ _).trans hk
    | ⟨1, _⟩ => exact rhs_mm2_1 _ _)
  show x0 (dot_S2000x128_S128x128_S2000x128_1_0_0_1_n_n.lhsIdx (ValueIdx.ix2 p q) ((ValueIdx.contrEquiv1 dot_S2000x128_S128x128_S2000x128_1_0_0_1_n_n 128 rfl rfl).symm k)) * x1 (dot_S2000x128_S128x128_S2000x128_1_0_0_1_n_n.rhsIdx (ValueIdx.ix2 p q) ((ValueIdx.contrEquiv1 dot_S2000x128_S128x128_S2000x128_1_0_0_1_n_n 128 rfl rfl).symm k)) = _
  rw [el, er]

/-! ## Where the blocks sit in their arrays -/

theorem offsets_zero_mm2 : (![0, 0] : Fin 2 → Nat) = fun _ => 0 := funext fun a => by fin_cases a <;> rfl

/-- The same entry at any index of the block. -/
theorem k2_pay1_apply (x0 : Vec Ideal S2000x128 .f32) (x1 : Vec Ideal S128x128 .f32) (j : S2000x128.Idx) :
    k2_pay1 (F := Ideal) x0 x1 j = ∑ k : Fin 128, x0 (ValueIdx.ix2 (n0 := 2000) (n1 := 128) (j 0) k) * x1 (ValueIdx.ix2 (n0 := 128) (n1 := 128) k (j 1)) := by
  obtain ⟨p, q, rfl⟩ : ∃ (p : Fin 2000) (q : Fin 128), j = ValueIdx.ix2 p q := ⟨j 0, j 1, ValueIdx.eq_ix2 j⟩
  exact k2_pay1_at x0 x1 p q

/-- The printed index maps over the grid: point t takes row block t of the left operand, the whole right operand, and
    writes row block t of the output. -/
theorem blockIndex_mm2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Region

variable (V : (c : Dev nD) → (b : Ref sig .tc) → Buf (Elt Ideal) ((c : Thread nD τ).loc b)) (c : Dev nD)

/-- What point t writes back is block t of the whole product: row r of the product reads only row r of the left operand,
    and the block's row p is row 2000 · t + p of the array. -/
theorem flushed_mm2 (t : Fin cfg2.N) :
    (dat2 V c).flushed 2 t = ((cfg2.win 2).blk t).view.read (Elt Ideal) (matmul128 (V c main_v47) (V c main_arg8)) := by
  show (cfg2.win 2).cut (grid2.coords t) ((dat2 V c).after 2 t) = _
  rw [after2_2]
  unfold out2_2
  rw [View.canon_unit_zero offsets_zero_mm2]
  simp only [View.ld_unit_zero (S := S2000x128) offsets_zero_mm2, View.ld_unit_zero (S := S128x128) offsets_zero_mm2]
  obtain ⟨e0, e1, e2, e3, e4, e5⟩ := blockIndex_mm2 t
  funext j
  refine (k2_pay1_apply (iblk2 V c 0 t) (iblk2 V c 1 t) j).trans ?_
  show _ = matmul128 (V c main_v47) (V c main_arg8) (((cfg2.win 2).blk t).view.emb j)
  unfold matmul128
  refine Finset.sum_congr rfl fun k _ => ?_
  show @HMul.hMul EReal EReal EReal _ (V c main_v47 (((cfg2.win 0).blk t).view.emb (ValueIdx.ix2 (n0 := 2000) (n1 := 128) (j 0) k))) (V c main_arg8 (((cfg2.win 1).blk t).view.emb (ValueIdx.ix2 (n0 := 128) (n1 := 128) k (j 1)))) = _
  refine congrArg₂ (fun a b : EReal => a * b) (congrArg (V c main_v47 : S50000x128.Idx → EReal) ?_) (congrArg (V c main_arg8 : S128x128.Idx → EReal) ?_)
  · funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
end Region

/-- An index of the output array is in point t's block iff each coordinate is in the block's range on its axis. -/
theorem mem_block_mm2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Every row r lies in the block of point r / 2000: the 25 blocks of 2000 rows tile the 50000 rows. -/
theorem cover_mm2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 25 := N_2
  let t : Fin cfg2.N := ⟨(i 0).val / 2000, by show (i 0).val / 2000 < grid2.N; omega⟩
  obtain ⟨e0, e1, e2, e3, e4, e5⟩ := blockIndex_mm2 t
  have ht : (t : Nat) = (i 0).val / 2000 := rfl
  refine ⟨t, flush2_2 t, ?_⟩
  rw [mem_block_mm2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

section Region

variable (V : (c : Dev nD) → (b : Ref sig .tc) → Buf (Elt Ideal) ((c : Thread nD τ).loc b)) (c : Dev nD)

/-- The region's output array after all 25 points: the whole product. -/
theorem region2_out : (dat2 V c).arrAt 2 cfg2.N = matmul128 (V c main_v47) (V c main_arg8) :=
  (dat2 V c).arrAt_eq_of_cover 2 _ (fun t _ => flushed_mm2 V c t) cover_mm2

end Region

end Cert.Gcn

end
-- ==== Proof.RegionMM4.lean ====
/-
  A matrix product x · W of node features x : [50000, 128] with weights W : [128, 64], computed in 25 blocks.

  The 50000 rows are cut into 25 blocks of 2000. Point t of the grid takes block t of x (rows 2000 · t … 2000 · t + 1999)
  and the whole of W, and stores their product, a [2000, 64] block, as block t of the output: entry (p, q) of that
  block is ∑ k, x[2000 · t + p, k] · W[k, q]. Row r of the product reads only row r of x, so the stored block is the
  restriction of the whole product to the block's rows. The 25 blocks of 2000 rows tile the 50000 rows, so after the
  last point the output array is the whole product, entry by entry.
-/
import proofs.«420302_j43971875177077_3_alg».proof.Proof.Gen.KernelIdeal.Frame
import proofs.«420302_j43971875177077_3_alg».proof.Proof.Stages

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

/-! ## One block's product, entry by entry -/

/-- The left operand is read at the output's row. -/
theorem lhs_mm4_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand is read at the summation index as its column. -/
theorem lhs_mm4_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand is read at the summation index as its row. -/
theorem rhs_mm4_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- The right operand is read at the output's column. -/
theorem rhs_mm4_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of what the body stores: the sum over k of x0[p, k] · x1[k, q] (the casts to bf16 are the identity on
    extended reals and the accumulator is zero). -/
theorem k4_pay1_at (x0 : Vec Ideal S2000x128 .f32) (x1 : Vec Ideal S128x64 .f32) (p : Fin 2000) (q : Fin 64) :
    k4_pay1 (F := Ideal) x0 x1 (ValueIdx.ix2 p q) = ∑ k : Fin 128, x0 (ValueIdx.ix2 p k) * x1 (ValueIdx.ix2 k q) := by
  unfold k4_pay1
  rw [shapeCast_self]
  refine (Ideal.matmul_constant_zero_apply dot_S2000x128_S128x64_S2000x64_1_0_0_1_n_n none _ _ (ValueIdx.ix2 p q)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ValueIdx.ix2 p q) ((ValueIdx.contrEquiv1 dot_S2000x128_S128x64_S2000x64_1_0_0_1_n_n 128 rfl rfl).symm k) = ValueIdx.ix2 p k := funext fun a => Fin.ext (by
    match a with
    | ⟨0, _⟩ => exact lhs_mm4_0 _ _
    | ⟨1, _⟩ => exact (lhs_mm4_1 _ _).trans hk)
  have er : dot_S2000x128_S128x64_S2000x64_1_0_0_1_n_n.rhsIdx (ValueIdx.ix2 p q) ((ValueIdx.contrEquiv1 dot_S2000x128_S128x64_S2000x64_1_0_0_1_n_n 128 rfl rfl).symm k) = ValueIdx.ix2 k q := funext fun a => Fin.ext (by
    match a with
    | ⟨0, _⟩ => exact (rhs_mm4_0 _ _).trans hk
    | ⟨1, _⟩ => exact rhs_mm4_1 _ _)
  show x0 (dot_S2000x128_S128x64_S2000x64_1_0_0_1_n_n.lhsIdx (ValueIdx.ix2 p q) ((ValueIdx.contrEquiv1 dot_S2000x128_S128x64_S2000x64_1_0_0_1_n_n 128 rfl rfl).symm k)) * x1 (dot_S2000x128_S128x64_S2000x64_1_0_0_1_n_n.rhsIdx (ValueIdx.ix2 p q) ((ValueIdx.contrEquiv1 dot_S2000x128_S128x64_S2000x64_1_0_0_1_n_n 128 rfl rfl).symm k)) = _
  rw [el, er]

/-! ## Where the blocks sit in their arrays -/

theorem offsets_zero_mm4 : (![0, 0] : Fin 2 → Nat) = fun _ => 0 := funext fun a => by fin_cases a <;> rfl

/-- The same entry at any index of the block. -/
theorem k4_pay1_apply (x0 : Vec Ideal S2000x128 .f32) (x1 : Vec Ideal S128x64 .f32) (j : S2000x64.Idx) :
    k4_pay1 (F := Ideal) x0 x1 j = ∑ k : Fin 128, x0 (ValueIdx.ix2 (n0 := 2000) (n1 := 128) (j 0) k) * x1 (ValueIdx.ix2 (n0 := 128) (n1 := 64) k (j 1)) := by
  obtain ⟨p, q, rfl⟩ : ∃ (p : Fin 2000) (q : Fin 64), j = ValueIdx.ix2 p q := ⟨j 0, j 1, ValueIdx.eq_ix2 j⟩
  exact k4_pay1_at x0 x1 p q

/-- The printed index maps over the grid: point t takes row block t of the left operand, the whole right operand, and
    writes row block t of the output. -/
theorem blockIndex_mm4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section Region

variable (V : (c : Dev nD) → (b : Ref sig .tc) → Buf (Elt Ideal) ((c : Thread nD τ).loc b)) (c : Dev nD)

/-- What point t writes back is block t of the whole product: row r of the product reads only row r of the left operand,
    and the block's row p is row 2000 · t + p of the array. -/
theorem flushed_mm4 (t : Fin cfg4.N) :
    (dat4 V c).flushed 2 t = ((cfg4.win 2).blk t).view.read (Elt Ideal) (matmul64 (V c main_v67) (V c main_arg14)) := by
  show (cfg4.win 2).cut (grid4.coords t) ((dat4 V c).after 2 t) = _
  rw [after4_2]
  unfold out4_2
  rw [View.canon_unit_zero offsets_zero_mm4]
  simp only [View.ld_unit_zero (S := S2000x128) offsets_zero_mm4, View.ld_unit_zero (S := S128x64) offsets_zero_mm4]
  obtain ⟨e0, e1, e2, e3, e4, e5⟩ := blockIndex_mm4 t
  funext j
  refine (k4_pay1_apply (iblk4 V c 0 t) (iblk4 V c 1 t) j).trans ?_
  show _ = matmul64 (V c main_v67) (V c main_arg14) (((cfg4.win 2).blk t).view.emb j)
  unfold matmul64
  refine Finset.sum_congr rfl fun k _ => ?_
  show @HMul.hMul EReal EReal EReal _ (V c main_v67 (((cfg4.win 0).blk t).view.emb (ValueIdx.ix2 (n0 := 2000) (n1 := 128) (j 0) k))) (V c main_arg14 (((cfg4.win 1).blk t).view.emb (ValueIdx.ix2 (n0 := 128) (n1 := 64) k (j 1)))) = _
  refine congrArg₂ (fun a b : EReal => a * b) (congrArg (V c main_v67 : S50000x128.Idx → EReal) ?_) (congrArg (V c main_arg14 : S128x64.Idx → EReal) ?_)
  · funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  · funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
end Region

/-- An index of the output array is in point t's block iff each coordinate is in the block's range on its axis. -/
theorem mem_block_mm4 (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v68).slice (win4_2.rect t)).set ↔ _
  rw [View.set_slice_whole, Rect.mem_set_unit]
  exact Iff.rfl

/-- Every row r lies in the block of point r / 2000: the 25 blocks of 2000 rows tile the 50000 rows. -/
theorem cover_mm4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : grid4.N = 25 := N_4
  let t : Fin cfg4.N := ⟨(i 0).val / 2000, by show (i 0).val / 2000 < grid4.N; omega⟩
  obtain ⟨e0, e1, e2, e3, e4, e5⟩ := blockIndex_mm4 t
  have ht : (t : Nat) = (i 0).val / 2000 := rfl
  refine ⟨t, flush4_2 t, ?_⟩
  rw [mem_block_mm4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

section Region

variable (V : (c : Dev nD) → (b : Ref sig .tc) → Buf (Elt Ideal) ((c : Thread nD τ).loc b)) (c : Dev nD)

/-- The region's output array after all 25 points: the whole product. -/
theorem region4_out : (dat4 V c).arrAt 2 cfg4.N = matmul64 (V c main_v67) (V c main_arg14) :=
  (dat4 V c).arrAt_eq_of_cover 2 _ (fun t _ => flushed_mm4 V c t) cover_mm4

end Region

end Cert.Gcn

end
-- ==== Proof.RegionComb1.lean ====
/-
  The first combine region of the three-layer graph convolution, read block by block.

  The region walks the 50000 node rows in 25 blocks of 2000. At block t it reads rows 2000·t … 2000·t + 1999 of the
  aggregate, of the product x·W and of the self-loop scale (a column), and the five per-feature rows (bias, γ, β, mean,
  variance) whole. It stores, entry by entry, the leaky rectifier of ((agg + h·s) + b − μ) · rsqrt (v + ε) · γ + β.
  So entry (r, k) of the output array is that formula of row r of the three node arrays and of column k of the five
  feature rows, which is `hidden2d`; and since 50000 = 25 · 2000 the blocks tile the array, so every entry is written.
-/
import proofs.«420302_j43971875177077_3_alg».proof.Proof.Gen.KernelIdeal.Frame
import proofs.«420302_j43971875177077_3_alg».proof.Proof.Stages

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

open Idealize.ShloMosaic.ValueIdx

/-! ## The stored value at one entry of a block -/

/-- A column [2000, 1] spread along the rows of a [2000, 128] block reads, at (p, q), the column at (p, 0). -/
theorem colSpread_at {α : Type} (x : S2000x1.Idx → α) (p : Fin 2000) (q : Fin 128) :
    broadcastTo S2000x128 x broadcasts_S2000x1_S2000x128 (ix2 p q) = x (ix2 p (0 : Fin 1)) :=
  broadcastTo_apply x broadcasts_S2000x1_S2000x128 (ix2 p q) (ix2 p (0 : Fin 1)) (fun a => by
    match a with
    | ⟨0, _⟩ => rfl
    | ⟨1, _⟩ => rfl)

/-- A row [1, 128] spread down the columns of a [2000, 128] block reads, at (p, q), the row at (0, q). -/
theorem rowSpread_at {α : Type} (x : S1x128.Idx → α) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => by
    match a with
    | ⟨0, _⟩ => rfl
    | ⟨1, _⟩ => rfl)

/-- The value the body stores at entry (p, q) of its block, from the eight loaded blocks `x0 … x7` in window order
    (aggregate, product, scale, bias, γ, β, mean, variance): the same-shape casts are identities, the two spreads read
    the column at (p, 0) and the rows at (0, q), and every other operation acts entry by entry. The body passes the
    mean and the variance before γ and β. -/
theorem k1_pay1_at (x0 x1 : Vec Ideal S2000x128 .f32) (x2 : Vec Ideal S2000x1 .f32)
    (x3 x4 x5 x6 x7 : Vec Ideal S1x128 .f32) (p : Fin 2000) (q : Fin 128) :
    k1_pay1 (F := Ideal) x0 x1 x2 x3 x6 x7 x4 x5 (ix2 p q)
      = leakyAt (bnAt (convAt (x0 (ix2 p q)) (x1 (ix2 p q)) (x2 (ix2 p (0 : Fin 1))) (x3 (ix2 (0 : Fin 1) q)))
          (x4 (ix2 (0 : Fin 1) q)) (x5 (ix2 (0 : Fin 1) q)) (x6 (ix2 (0 : Fin 1) q)) (x7 (ix2 (0 : Fin 1) q))) := by
  unfold k1_pay1
  simp only [shapeCast_self, select_apply, cmpf_apply, mulf_apply, addf_apply, subf_apply, broadcast_apply,
    colSpread_at, rowSpread_at]
  rfl

/-- The formula of one entry depends only on its eight operands. -/
theorem hiddenAt_congr {a a' h h' s s' b b' γ γ' β β' μ μ' v v' : EReal} (ea : a = a') (eh : h = h') (es : s = s')
    (eb : b = b') (eγ : γ = γ') (eβ : β = β') (eμ : μ = μ') (ev : v = v') :
    leakyAt (bnAt (convAt a h s b) γ β μ v) = leakyAt (bnAt (convAt a' h' s' b') γ' β' μ' v') := by
  subst ea eh es eb eγ eβ eμ ev; rfl

/-! ## Where each window's block sits at a grid point -/

theorem zeroOffsets : (![0, 0] : Fin 2 → Nat) = fun _ => 0 := funext fun a => by fin_cases a <;> rfl

/-- The printed index maps over the 25 grid points: the three node windows and the output move together down the row
    axis, block `t` at point `t`, and stay at column block 0; the five feature rows never move. -/
theorem blockIdx1 : ∀ t : Fin cfg1.N,
    win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

section Region
variable (V : (c : Dev nD) → (b : Ref sig .tc) → Buf (Elt Ideal) ((c : Thread nD τ).loc b)) (c : Dev nD)

/-! ## Each input block's entry is the array's entry the output's rectangle names

Entry (p, q) of the output block at point `t` is entry (2000·t + p, q) of the output array. A block's coordinate in its
array is the block index times the block's size plus the coordinate inside the block, axis by axis. -/

/-- The aggregate's block holds the same rows and columns as the output's. -/
theorem read1_0 (t : Fin cfg1.N) (p : Fin 2000) (q : Fin 128) :
    iblk1 V c 0 t (ix2 p q) = V c main_v41 (((cfg1.win 8).blk t).view.emb (ix2 p q)) := by
  obtain ⟨o0, o1, a0, a1, b0, b1, -⟩ := blockIdx1 t
  show V c main_v41 (((cfg1.win 0).blk t).view.emb (ix2 p q)) = V c main_v41 (((cfg1.win 8).blk t).view.emb (ix2 p q))
  refine congrArg _ (funext fun a => Fin.ext ?_)
  match a with
  | ⟨0, _⟩ => show win1_0.index t (0 : Fin 2) * 2000 + 1 * p.val = win1_8.index t (0 : Fin 2) * 2000 + 1 * p.val; omega
  | ⟨1, _⟩ => show win1_0.index t (1 : Fin 2) * 128 + 1 * q.val = win1_8.index t (1 : Fin 2) * 128 + 1 * q.val; omega

/-- The product's block holds the same rows and columns as the output's. -/
theorem read1_1 (t : Fin cfg1.N) (p : Fin 2000) (q : Fin 128) :
    iblk1 V c 1 t (ix2 p q) = V c main_v28 (((cfg1.win 8).blk t).view.emb (ix2 p q)) := by
  obtain ⟨o0, o1, a0, a1, b0, b1, -⟩ := blockIdx1 t
  show V c main_v28 (((cfg1.win 1).blk t).view.emb (ix2 p q)) = V c main_v28 (((cfg1.win 8).blk t).view.emb (ix2 p q))
  refine congrArg _ (funext fun a => Fin.ext ?_)
  match a with
  | ⟨0, _⟩ => show win1_1.index t (0 : Fin 2) * 2000 + 1 * p.val = win1_8.index t (0 : Fin 2) * 2000 + 1 * p.val; omega
  | ⟨1, _⟩ => show win1_1.index t (1 : Fin 2) * 128 + 1 * q.val = win1_8.index t (1 : Fin 2) * 128 + 1 * q.val; omega

/-- The scale's block holds the same rows, and its one column. -/
theorem read1_2 (t : Fin cfg1.N) (p : Fin 2000) (q : Fin 128) :
    iblk1 V c 2 t (ix2 p (0 : Fin 1)) = V c main_v27 (colOf128 (((cfg1.win 8).blk t).view.emb (ix2 p q))) := by
  obtain ⟨o0, o1, a0, a1, b0, b1, s0, s1, -⟩ := blockIdx1 t
  show V c main_v27 (((cfg1.win 2).blk t).view.emb (ix2 p (0 : Fin 1)))
    = V c main_v27 (colOf128 (((cfg1.win 8).blk t).view.emb (ix2 p q)))
  refine congrArg _ (funext fun a => Fin.ext ?_)
  match a with
  | ⟨0, _⟩ => show win1_2.index t (0 : Fin 2) * 2000 + 1 * p.val = win1_8.index t (0 : Fin 2) * 2000 + 1 * p.val; omega
  | ⟨1, _⟩ => show win1_2.index t (1 : Fin 2) * 1 + 1 * 0 = 0; omega

/-- The bias row is whole at every point: its one row, the output's column. -/
theorem read1_3 (t : Fin cfg1.N) (p : Fin 2000) (q : Fin 128) :
    iblk1 V c 3 t (ix2 (0 : Fin 1) q) = V c main_v42 (rowOf128 (((cfg1.win 8).blk t).view.emb (ix2 p q))) := by
  obtain ⟨o0, o1, a0, a1, b0, b1, s0, s1, c0, c1, d0, d1, e0, e1, f0, f1, g0, g1⟩ := blockIdx1 t
  show V c main_v42 (((cfg1.win 3).blk t).view.emb (ix2 (0 : Fin 1) q))
    = V c main_v42 (rowOf128 (((cfg1.win 8).blk t).view.emb (ix2 p q)))
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = win1_8.index t (1 : Fin 2) * 128 + 1 * q.val; omega

/-- The γ row is whole at every point: its one row, the output's column. -/
theorem read1_4 (t : Fin cfg1.N) (p : Fin 2000) (q : Fin 128) :
    iblk1 V c 4 t (ix2 (0 : Fin 1) q) = V c main_v43 (rowOf128 (((cfg1.win 8).blk t).view.emb (ix2 p q))) := by
  obtain ⟨o0, o1, a0, a1, b0, b1, s0, s1, c0, c1, d0, d1, e0, e1, f0, f1, g0, g1⟩ := blockIdx1 t
  show V c main_v43 (((cfg1.win 4).blk t).view.emb (ix2 (0 : Fin 1) q))
    = V c main_v43 (rowOf128 (((cfg1.win 8).blk t).view.emb (ix2 p q)))
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = win1_8.index t (1 : Fin 2) * 128 + 1 * q.val; omega

/-- The β row is whole at every point: its one row, the output's column. -/
theorem read1_5 (t : Fin cfg1.N) (p : Fin 2000) (q : Fin 128) :
    iblk1 V c 5 t (ix2 (0 : Fin 1) q) = V c main_v44 (rowOf128 (((cfg1.win 8).blk t).view.emb (ix2 p q))) := by
  obtain ⟨o0, o1, a0, a1, b0, b1, s0, s1, c0, c1, d0, d1, e0, e1, f0, f1, g0, g1⟩ := blockIdx1 t
  show V c main_v44 (((cfg1.win 5).blk t).view.emb (ix2 (0 : Fin 1) q))
    = V c main_v44 (rowOf128 (((cfg1.win 8).blk t).view.emb (ix2 p q)))
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = win1_8.index t (1 : Fin 2) * 128 + 1 * q.val; omega

/-- The mean row is whole at every point: its one row, the output's column. -/
theorem read1_6 (t : Fin cfg1.N) (p : Fin 2000) (q : Fin 128) :
    iblk1 V c 6 t (ix2 (0 : Fin 1) q) = V c main_v45 (rowOf128 (((cfg1.win 8).blk t).view.emb (ix2 p q))) := by
  obtain ⟨o0, o1, a0, a1, b0, b1, s0, s1, c0, c1, d0, d1, e0, e1, f0, f1, g0, g1⟩ := blockIdx1 t
  show V c main_v45 (((cfg1.win 6).blk t).view.emb (ix2 (0 : Fin 1) q))
    = V c main_v45 (rowOf128 (((cfg1.win 8).blk t).view.emb (ix2 p q)))
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * q.val = win1_8.index t (1 : Fin 2) * 128 + 1 * q.val; omega

/-- The variance row is whole at every point: its one row, the output's column. -/
theorem read1_7 (t : Fin cfg1.N) (p : Fin 2000) (q : Fin 128) :
    iblk1 V c 7 t (ix2 (0 : Fin 1) q) = V c main_v46 (rowOf128 (((cfg1.win 8).blk t).view.emb (ix2 p q))) := by
  obtain ⟨o0, o1, a0, a1, b0, b1, s0, s1, c0, c1, d0, d1, e0, e1, f0, f1, g0, g1⟩ := blockIdx1 t
  show V c main_v46 (((cfg1.win 7).blk t).view.emb (ix2 (0 : Fin 1) q))
    = V c main_v46 (rowOf128 (((cfg1.win 8).blk t).view.emb (ix2 p q)))
  refine congrArg _ (funext fun a => Fin.ext ?_)
  match a with
  | ⟨0, _⟩ => show win1_7.index t (0 : Fin 2) * 1 + 1 * 0 = 0; omega
  | ⟨1, _⟩ => show win1_7.index t (1 : Fin 2) * 128 + 1 * q.val = win1_8.index t (1 : Fin 2) * 128 + 1 * q.val; omega

/-- WHAT POINT `t` WRITES BACK is block `t` of the hidden layer's formula on the arrays the region finds. An entry
    (p, q) of the block is entry (2000·t + p, q) of the array; the node windows' blocks hold the same row, the feature
    rows the same column. -/
theorem flushed1_eq (t : Fin cfg1.N) :
    (dat1 V c).flushed 8 t = ((cfg1.win 8).blk t).view.read (Elt Ideal)
      (hidden2d (V c main_v41) (V c main_v28) (V c main_v27) (V c main_v42) (V c main_v43) (V c main_v44)
        (V c main_v45) (V c main_v46)) := by
  show (cfg1.win 8).cut (grid1.coords t) ((dat1 V c).after 8 t) = _
  rw [after1_8]
  unfold out1_8
  rw [View.canon_unit_zero zeroOffsets]
  simp only [View.ld_unit_zero (S := S2000x128) zeroOffsets, View.ld_unit_zero (S := S2000x1) zeroOffsets,
    View.ld_unit_zero (S := S1x128) zeroOffsets]
  funext j
  obtain ⟨p, q, rfl⟩ : ∃ (p : Fin 2000) (q : Fin 128), j = ix2 p q := ⟨j 0, j 1, eq_ix2 j⟩
  refine (k1_pay1_at _ _ _ _ _ _ _ _ p q).trans ?_
  exact hiddenAt_congr (read1_0 V c t p q) (read1_1 V c t p q) (read1_2 V c t p q) (read1_3 V c t p q)
    (read1_4 V c t p q) (read1_5 V c t p q) (read1_6 V c t p q) (read1_7 V c t p q)

/-! ## The blocks tile the array -/

/-- An index of the array is in point `t`'s block iff each coordinate is in the block's range on its axis. -/
theorem mem_blk1 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v47).slice (win1_8.rect t)).set ↔ _
  rw [View.set_slice_whole, Rect.mem_set_unit]
  exact Iff.rfl

/-- Row `r` lies in the block of point `r / 2000`: 50000 = 25 · 2000, so every entry is written. -/
theorem cover1 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨o0, o1, -⟩ := blockIdx1 ⟨(i 0).val / 2000, ht⟩
  refine ⟨⟨(i 0).val / 2000, ht⟩, flush1_8 _, ?_⟩
  rw [mem_blk1]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    have o0' : win1_8.index ⟨(i 0).val / 2000, ht⟩ (0 : Fin 2) = (i 0).val / 2000 := o0
    omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    omega

/-! ## The region's output array -/

/-- After the first combine region its output array is the hidden layer's formula, entry by entry, of the eight
    arrays the region was entered with. -/
theorem region1_out : (dat1 V c).arrAt 8 cfg1.N =
    hidden2d (V c main_v41) (V c main_v28) (V c main_v27) (V c main_v42) (V c main_v43) (V c main_v44) (V c main_v45) (V c main_v46) :=
  (dat1 V c).arrAt_eq_of_cover 8 _ (fun t _ => flushed1_eq V c t) cover1

end Region

end Cert.Gcn

end
-- ==== Proof.RegionComb3.lean ====
/-
  The second combine region of the three-layer graph convolution, read block by block.

  The region walks the 50000 node rows in 25 blocks of 2000. At block t it reads rows 2000·t … 2000·t + 1999 of the
  aggregate, of the product x·W and of the self-loop scale (a column), and the five per-feature rows (bias, γ, β, mean,
  variance) whole. It stores, entry by entry, the leaky rectifier of ((agg + h·s) + b − μ) · rsqrt (v + ε) · γ + β.
  So entry (r, k) of the output array is that formula of row r of the three node arrays and of column k of the five
  feature rows, which is `hidden2d`; and since 50000 = 25 · 2000 the blocks tile the array, so every entry is written.
-/
import proofs.«420302_j43971875177077_3_alg».proof.Proof.Gen.KernelIdeal.Frame
import proofs.«420302_j43971875177077_3_alg».proof.Proof.Stages

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

open Idealize.ShloMosaic.ValueIdx

/-! ## The stored value at one entry of a block -/

/-- A column [2000, 1] spread along the rows of a [2000, 128] block reads, at (p, q), the column at (p, 0). -/
theorem colSpread3_at {α : Type} (x : S2000x1.Idx → α) (p : Fin 2000) (q : Fin 128) :
    broadcastTo S2000x128 x broadcasts_S2000x1_S2000x128 (ix2 p q) = x (ix2 p (0 : Fin 1)) :=
  broadcastTo_apply x broadcasts_S2000x1_S2000x128 (ix2 p q) (ix2 p (0 : Fin 1)) (fun a => by
    match a with
    | ⟨0, _⟩ => rfl
    | ⟨1, _⟩ => rfl)

/-- A row [1, 128] spread down the columns of a [2000, 128] block reads, at (p, q), the row at (0, q). -/
theorem rowSpread3_at {α : Type} (x : S1x128.Idx → α) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => by
    match a with
    | ⟨0, _⟩ => rfl
    | ⟨1, _⟩ => rfl)

/-- The value the body stores at entry (p, q) of its block, from the eight loaded blocks `x0 … x7` in window order
    (aggregate, product, scale, bias, γ, β, mean, variance): the same-shape casts are identities, the two spreads read
    the column at (p, 0) and the rows at (0, q), and every other operation acts entry by entry. The body passes the
    mean and the variance before γ and β. -/
theorem k3_pay1_at (x0 x1 : Vec Ideal S2000x128 .f32) (x2 : Vec Ideal S2000x1 .f32)
    (x3 x4 x5 x6 x7 : Vec Ideal S1x128 .f32) (p : Fin 2000) (q : Fin 128) :
    k3_pay1 (F := Ideal) x0 x1 x2 x3 x6 x7 x4 x5 (ix2 p q)
      = leakyAt (bnAt (convAt (x0 (ix2 p q)) (x1 (ix2 p q)) (x2 (ix2 p (0 : Fin 1))) (x3 (ix2 (0 : Fin 1) q)))
          (x4 (ix2 (0 : Fin 1) q)) (x5 (ix2 (0 : Fin 1) q)) (x6 (ix2 (0 : Fin 1) q)) (x7 (ix2 (0 : Fin 1) q))) := by
  unfold k3_pay1
  simp only [shapeCast_self, select_apply, cmpf_apply, mulf_apply, addf_apply, subf_apply, broadcast_apply,
    colSpread3_at, rowSpread3_at]
  rfl

/-- The formula of one entry depends only on its eight operands. -/
theorem hiddenAt3_congr {a a' h h' s s' b b' γ γ' β β' μ μ' v v' : EReal} (ea : a = a') (eh : h = h') (es : s = s')
    (eb : b = b') (eγ : γ = γ') (eβ : β = β') (eμ : μ = μ') (ev : v = v') :
    leakyAt (bnAt (convAt a h s b) γ β μ v) = leakyAt (bnAt (convAt a' h' s' b') γ' β' μ' v') := by
  subst ea eh es eb eγ eβ eμ ev; rfl

/-! ## Where each window's block sits at a grid point -/

theorem zeroOffsets3 : (![0, 0] : Fin 2 → Nat) = fun _ => 0 := funext fun a => by fin_cases a <;> rfl

/-- The printed index maps over the 25 grid points: the three node windows and the output move together down the row
    axis, block `t` at point `t`, and stay at column block 0; the five feature rows never move. -/
theorem blockIdx3 : ∀ t : Fin cfg3.N,
    win3_8.index t (0 : Fin 2) = t.val ∧ win3_8.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

section Region
variable (V : (c : Dev nD) → (b : Ref sig .tc) → Buf (Elt Ideal) ((c : Thread nD τ).loc b)) (c : Dev nD)

/-! ## Each input block's entry is the array's entry the output's rectangle names

Entry (p, q) of the output block at point `t` is entry (2000·t + p, q) of the output array. A block's coordinate in its
array is the block index times the block's size plus the coordinate inside the block, axis by axis. -/

/-- The aggregate's block holds the same rows and columns as the output's. -/
theorem read3_0 (t : Fin cfg3.N) (p : Fin 2000) (q : Fin 128) :
    iblk3 V c 0 t (ix2 p q) = V c main_v61 (((cfg3.win 8).blk t).view.emb (ix2 p q)) := by
  obtain ⟨o0, o1, a0, a1, b0, b1, -⟩ := blockIdx3 t
  show V c main_v61 (((cfg3.win 0).blk t).view.emb (ix2 p q)) = V c main_v61 (((cfg3.win 8).blk t).view.emb (ix2 p q))
  refine congrArg _ (funext fun a => Fin.ext ?_)
  match a with
  | ⟨0, _⟩ => show win3_0.index t (0 : Fin 2) * 2000 + 1 * p.val = win3_8.index t (0 : Fin 2) * 2000 + 1 * p.val; omega
  | ⟨1, _⟩ => show win3_0.index t (1 : Fin 2) * 128 + 1 * q.val = win3_8.index t (1 : Fin 2) * 128 + 1 * q.val; omega

/-- The product's block holds the same rows and columns as the output's. -/
theorem read3_1 (t : Fin cfg3.N) (p : Fin 2000) (q : Fin 128) :
    iblk3 V c 1 t (ix2 p q) = V c main_v48 (((cfg3.win 8).blk t).view.emb (ix2 p q)) := by
  obtain ⟨o0, o1, a0, a1, b0, b1, -⟩ := blockIdx3 t
  show V c main_v48 (((cfg3.win 1).blk t).view.emb (ix2 p q)) = V c main_v48 (((cfg3.win 8).blk t).view.emb (ix2 p q))
  refine congrArg _ (funext fun a => Fin.ext ?_)
  match a with
  | ⟨0, _⟩ => show win3_1.index t (0 : Fin 2) * 2000 + 1 * p.val = win3_8.index t (0 : Fin 2) * 2000 + 1 * p.val; omega
  | ⟨1, _⟩ => show win3_1.index t (1 : Fin 2) * 128 + 1 * q.val = win3_8.index t (1 : Fin 2) * 128 + 1 * q.val; omega

/-- The scale's block holds the same rows, and its one column. -/
theorem read3_2 (t : Fin cfg3.N) (p : Fin 2000) (q : Fin 128) :
    iblk3 V c 2 t (ix2 p (0 : Fin 1)) = V c main_v27 (colOf128 (((cfg3.win 8).blk t).view.emb (ix2 p q))) := by
  obtain ⟨o0, o1, a0, a1, b0, b1, s0, s1, -⟩ := blockIdx3 t
  show V c main_v27 (((cfg3.win 2).blk t).view.emb (ix2 p (0 : Fin 1)))
    = V c main_v27 (colOf128 (((cfg3.win 8).blk t).view.emb (ix2 p q)))
  refine congrArg _ (funext fun a => Fin.ext ?_)
  match a with
  | ⟨0, _⟩ => show win3_2.index t (0 : Fin 2) * 2000 + 1 * p.val = win3_8.index t (0 : Fin 2) * 2000 + 1 * p.val; omega
  | ⟨1, _⟩ => show win3_2.index t (1 : Fin 2) * 1 + 1 * 0 = 0; omega

/-- The bias row is whole at every point: its one row, the output's column. -/
theorem read3_3 (t : Fin cfg3.N) (p : Fin 2000) (q : Fin 128) :
    iblk3 V c 3 t (ix2 (0 : Fin 1) q) = V c main_v62 (rowOf128 (((cfg3.win 8).blk t).view.emb (ix2 p q))) := by
  obtain ⟨o0, o1, a0, a1, b0, b1, s0, s1, c0, c1, d0, d1, e0, e1, f0, f1, g0, g1⟩ := blockIdx3 t
  show V c main_v62 (((cfg3.win 3).blk t).view.emb (ix2 (0 : Fin 1) q))
    = V c main_v62 (rowOf128 (((cfg3.win 8).blk t).view.emb (ix2 p q)))
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = win3_8.index t (1 : Fin 2) * 128 + 1 * q.val; omega

/-- The γ row is whole at every point: its one row, the output's column. -/
theorem read3_4 (t : Fin cfg3.N) (p : Fin 2000) (q : Fin 128) :
    iblk3 V c 4 t (ix2 (0 : Fin 1) q) = V c main_v63 (rowOf128 (((cfg3.win 8).blk t).view.emb (ix2 p q))) := by
  obtain ⟨o0, o1, a0, a1, b0, b1, s0, s1, c0, c1, d0, d1, e0, e1, f0, f1, g0, g1⟩ := blockIdx3 t
  show V c main_v63 (((cfg3.win 4).blk t).view.emb (ix2 (0 : Fin 1) q))
    = V c main_v63 (rowOf128 (((cfg3.win 8).blk t).view.emb (ix2 p q)))
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = win3_8.index t (1 : Fin 2) * 128 + 1 * q.val; omega

/-- The β row is whole at every point: its one row, the output's column. -/
theorem read3_5 (t : Fin cfg3.N) (p : Fin 2000) (q : Fin 128) :
    iblk3 V c 5 t (ix2 (0 : Fin 1) q) = V c main_v64 (rowOf128 (((cfg3.win 8).blk t).view.emb (ix2 p q))) := by
  obtain ⟨o0, o1, a0, a1, b0, b1, s0, s1, c0, c1, d0, d1, e0, e1, f0, f1, g0, g1⟩ := blockIdx3 t
  show V c main_v64 (((cfg3.win 5).blk t).view.emb (ix2 (0 : Fin 1) q))
    = V c main_v64 (rowOf128 (((cfg3.win 8).blk t).view.emb (ix2 p q)))
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = win3_8.index t (1 : Fin 2) * 128 + 1 * q.val; omega

/-- The mean row is whole at every point: its one row, the output's column. -/
theorem read3_6 (t : Fin cfg3.N) (p : Fin 2000) (q : Fin 128) :
    iblk3 V c 6 t (ix2 (0 : Fin 1) q) = V c main_v65 (rowOf128 (((cfg3.win 8).blk t).view.emb (ix2 p q))) := by
  obtain ⟨o0, o1, a0, a1, b0, b1, s0, s1, c0, c1, d0, d1, e0, e1, f0, f1, g0, g1⟩ := blockIdx3 t
  show V c main_v65 (((cfg3.win 6).blk t).view.emb (ix2 (0 : Fin 1) q))
    = V c main_v65 (rowOf128 (((cfg3.win 8).blk t).view.emb (ix2 p q)))
  refine congrArg _ (funext fun a => Fin.ext ?_)
  match a with
  | ⟨0, _⟩ => show win3_6.index t (0 : Fin 2) * 1 + 1 * 0 = 0; omega
  | ⟨1, _⟩ => show win3_6.index t (1 : Fin 2) * 128 + 1 * q.val = win3_8.index t (1 : Fin 2) * 128 + 1 * q.val; omega

/-- The variance row is whole at every point: its one row, the output's column. -/
theorem read3_7 (t : Fin cfg3.N) (p : Fin 2000) (q : Fin 128) :
    iblk3 V c 7 t (ix2 (0 : Fin 1) q) = V c main_v66 (rowOf128 (((cfg3.win 8).blk t).view.emb (ix2 p q))) := by
  obtain ⟨o0, o1, a0, a1, b0, b1, s0, s1, c0, c1, d0, d1, e0, e1, f0, f1, g0, g1⟩ := blockIdx3 t
  show V c main_v66 (((cfg3.win 7).blk t).view.emb (ix2 (0 : Fin 1) q))
    = V c main_v66 (rowOf128 (((cfg3.win 8).blk t).view.emb (ix2 p q)))
  refine congrArg _ (funext fun a => Fin.ext ?_)
  match a with
  | ⟨0, _⟩ => show win3_7.index t (0 : Fin 2) * 1 + 1 * 0 = 0; omega
  | ⟨1, _⟩ => show win3_7.index t (1 : Fin 2) * 128 + 1 * q.val = win3_8.index t (1 : Fin 2) * 128 + 1 * q.val; omega

/-- WHAT POINT `t` WRITES BACK is block `t` of the hidden layer's formula on the arrays the region finds. An entry
    (p, q) of the block is entry (2000·t + p, q) of the array; the node windows' blocks hold the same row, the feature
    rows the same column. -/
theorem flushed3_eq (t : Fin cfg3.N) :
    (dat3 V c).flushed 8 t = ((cfg3.win 8).blk t).view.read (Elt Ideal)
      (hidden2d (V c main_v61) (V c main_v48) (V c main_v27) (V c main_v62) (V c main_v63) (V c main_v64)
        (V c main_v65) (V c main_v66)) := by
  show (cfg3.win 8).cut (grid3.coords t) ((dat3 V c).after 8 t) = _
  rw [after3_8]
  unfold out3_8
  rw [View.canon_unit_zero zeroOffsets3]
  simp only [View.ld_unit_zero (S := S2000x128) zeroOffsets3, View.ld_unit_zero (S := S2000x1) zeroOffsets3,
    View.ld_unit_zero (S := S1x128) zeroOffsets3]
  funext j
  obtain ⟨p, q, rfl⟩ : ∃ (p : Fin 2000) (q : Fin 128), j = ix2 p q := ⟨j 0, j 1, eq_ix2 j⟩
  refine (k3_pay1_at _ _ _ _ _ _ _ _ p q).trans ?_
  exact hiddenAt3_congr (read3_0 V c t p q) (read3_1 V c t p q) (read3_2 V c t p q) (read3_3 V c t p q)
    (read3_4 V c t p q) (read3_5 V c t p q) (read3_6 V c t p q) (read3_7 V c t p q)

/-! ## The blocks tile the array -/

/-- An index of the array is in point `t`'s block iff each coordinate is in the block's range on its axis. -/
theorem mem_blk3 (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v67).slice (win3_8.rect t)).set ↔ _
  rw [View.set_slice_whole, Rect.mem_set_unit]
  exact Iff.rfl

/-- Row `r` lies in the block of point `r / 2000`: 50000 = 25 · 2000, so every entry is written. -/
theorem cover3 (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨o0, o1, -⟩ := blockIdx3 ⟨(i 0).val / 2000, ht⟩
  refine ⟨⟨(i 0).val / 2000, ht⟩, flush3_8 _, ?_⟩
  rw [mem_blk3]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    have o0' : win3_8.index ⟨(i 0).val / 2000, ht⟩ (0 : Fin 2) = (i 0).val / 2000 := o0
    omega
  | ⟨1, _⟩ =>
    show win3_8.index ⟨(i 0).val / 2000, ht⟩ (1 : Fin 2) * 128 ≤ (i 1).val
      ∧ (i 1).val < win3_8.index ⟨(i 0).val / 2000, ht⟩ (1 : Fin 2) * 128 + 128
    omega

/-! ## The region's output array -/

/-- After the second combine region its output array is the hidden layer's formula, entry by entry, of the eight
    arrays the region was entered with. -/
theorem region3_out : (dat3 V c).arrAt 8 cfg3.N =
    hidden2d (V c main_v61) (V c main_v48) (V c main_v27) (V c main_v62) (V c main_v63) (V c main_v64) (V c main_v65) (V c main_v66) :=
  (dat3 V c).arrAt_eq_of_cover 8 _ (fun t _ => flushed3_eq V c t) cover3

end Region

end Cert.Gcn

end
-- ==== Proof.RegionComb5.lean ====
/-
  The last combine region of the three-layer graph convolution, read block by block.

  The region walks the 50000 node rows in 25 blocks of 2000. At block t it reads rows 2000·t … 2000·t + 1999 of the
  aggregate, of the product x·W and of the self-loop scale (a column), and the bias row whole; its four other windows
  are fetched and never read. It stores, entry by entry, (agg + h·s) + b, with no normalisation and no rectifier.
  So entry (r, k) of the output array is that formula of row r of the three node arrays and of column k of the bias
  row, which is `last2d`; and since 50000 = 25 · 2000 the blocks tile the array, so every entry is written.
-/
import proofs.«420302_j43971875177077_3_alg».proof.Proof.Gen.KernelIdeal.Frame
import proofs.«420302_j43971875177077_3_alg».proof.Proof.Stages

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

open Idealize.ShloMosaic.ValueIdx

/-! ## The stored value at one entry of a block -/

/-- A column [2000, 1] spread along the rows of a [2000, 64] block reads, at (p, q), the column at (p, 0). -/
theorem colSpread64_at {α : Type} (x : S2000x1.Idx → α) (p : Fin 2000) (q : Fin 64) :
    broadcastTo S2000x64 x broadcasts_S2000x1_S2000x64 (ix2 p q) = x (ix2 p (0 : Fin 1)) :=
  broadcastTo_apply x broadcasts_S2000x1_S2000x64 (ix2 p q) (ix2 p (0 : Fin 1)) (fun a => by
    match a with
    | ⟨0, _⟩ => rfl
    | ⟨1, _⟩ => rfl)

/-- A row [1, 64] spread down the columns of a [2000, 64] block reads, at (p, q), the row at (0, q). -/
theorem rowSpread64_at {α : Type} (x : S1x64.Idx → α) (p : Fin 2000) (q : Fin 64) :
    broadcastTo S2000x64 x broadcasts_S1x64_S2000x64 (ix2 p q) = x (ix2 (0 : Fin 1) q) :=
  broadcastTo_apply x broadcasts_S1x64_S2000x64 (ix2 p q) (ix2 (0 : Fin 1) q) (fun a => by
    match a with
    | ⟨0, _⟩ => rfl
    | ⟨1, _⟩ => rfl)

/-- The value the body stores at entry (p, q) of its block, from the four loaded blocks it reads (aggregate, product,
    scale, bias): the same-shape casts are identities, the two spreads read the column at (p, 0) and the row at (0, q),
    and the product and the two sums act entry by entry. -/
theorem k5_pay1_at (x0 x1 : Vec Ideal S2000x64 .f32) (x2 : Vec Ideal S2000x1 .f32) (x3 : Vec Ideal S1x64 .f32)
    (p : Fin 2000) (q : Fin 64) :
    k5_pay1 (F := Ideal) x0 x1 x2 x3 (ix2 p q)
      = convAt (x0 (ix2 p q)) (x1 (ix2 p q)) (x2 (ix2 p (0 : Fin 1))) (x3 (ix2 (0 : Fin 1) q)) := by
  unfold k5_pay1
  simp only [shapeCast_self, mulf_apply, addf_apply, colSpread64_at, rowSpread64_at]
  rfl

/-- The formula of one entry depends only on its four operands. -/
theorem lastAt_congr {a a' h h' s s' b b' : EReal} (ea : a = a') (eh : h = h') (es : s = s') (eb : b = b') :
    convAt a h s b = convAt a' h' s' b' := by
  subst ea eh es eb; rfl

/-! ## Where each window's block sits at a grid point -/

theorem zeroOffsets5 : (![0, 0] : Fin 2 → Nat) = fun _ => 0 := funext fun a => by fin_cases a <;> rfl

/-- The printed index maps over the 25 grid points: the three node windows and the output move together down the row
    axis, block `t` at point `t`, and stay at column block 0; the bias row never moves. -/
theorem blockIdx5 : ∀ t : Fin cfg5.N,
    win5_8.index t (0 : Fin 2) = t.val ∧ win5_8.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0 :=
  (by decide +kernel : ∀ t : Fin grid5.N, _)

section Region
variable (V : (c : Dev nD) → (b : Ref sig .tc) → Buf (Elt Ideal) ((c : Thread nD τ).loc b)) (c : Dev nD)

/-! ## Each input block's entry is the array's entry the output's rectangle names

Entry (p, q) of the output block at point `t` is entry (2000·t + p, q) of the output array. A block's coordinate in its
array is the block index times the block's size plus the coordinate inside the block, axis by axis. -/

/-- The aggregate's block holds the same rows and columns as the output's. -/
theorem read5_0 (t : Fin cfg5.N) (p : Fin 2000) (q : Fin 64) :
    iblk5 V c 0 t (ix2 p q) = V c main_v81 (((cfg5.win 8).blk t).view.emb (ix2 p q)) := by
  obtain ⟨o0, o1, a0, a1, b0, b1, -⟩ := blockIdx5 t
  show V c main_v81 (((cfg5.win 0).blk t).view.emb (ix2 p q)) = V c main_v81 (((cfg5.win 8).blk t).view.emb (ix2 p q))
  refine congrArg _ (funext fun a => Fin.ext ?_)
  match a with
  | ⟨0, _⟩ => show win5_0.index t (0 : Fin 2) * 2000 + 1 * p.val = win5_8.index t (0 : Fin 2) * 2000 + 1 * p.val; omega
  | ⟨1, _⟩ => show win5_0.index t (1 : Fin 2) * 64 + 1 * q.val = win5_8.index t (1 : Fin 2) * 64 + 1 * q.val; omega

/-- The product's block holds the same rows and columns as the output's. -/
theorem read5_1 (t : Fin cfg5.N) (p : Fin 2000) (q : Fin 64) :
    iblk5 V c 1 t (ix2 p q) = V c main_v68 (((cfg5.win 8).blk t).view.emb (ix2 p q)) := by
  obtain ⟨o0, o1, a0, a1, b0, b1, -⟩ := blockIdx5 t
  show V c main_v68 (((cfg5.win 1).blk t).view.emb (ix2 p q)) = V c main_v68 (((cfg5.win 8).blk t).view.emb (ix2 p q))
  refine congrArg _ (funext fun a => Fin.ext ?_)
  match a with
  | ⟨0, _⟩ => show win5_1.index t (0 : Fin 2) * 2000 + 1 * p.val = win5_8.index t (0 : Fin 2) * 2000 + 1 * p.val; omega
  | ⟨1, _⟩ => show win5_1.index t (1 : Fin 2) * 64 + 1 * q.val = win5_8.index t (1 : Fin 2) * 64 + 1 * q.val; omega

/-- The scale's block holds the same rows, and its one column. -/
theorem read5_2 (t : Fin cfg5.N) (p : Fin 2000) (q : Fin 64) :
    iblk5 V c 2 t (ix2 p (0 : Fin 1)) = V c main_v27 (colOf64 (((cfg5.win 8).blk t).view.emb (ix2 p q))) := by
  obtain ⟨o0, o1, a0, a1, b0, b1, s0, s1, -⟩ := blockIdx5 t
  show V c main_v27 (((cfg5.win 2).blk t).view.emb (ix2 p (0 : Fin 1)))
    = V c main_v27 (colOf64 (((cfg5.win 8).blk t).view.emb (ix2 p q)))
  refine congrArg _ (funext fun a => Fin.ext ?_)
  match a with
  | ⟨0, _⟩ => show win5_2.index t (0 : Fin 2) * 2000 + 1 * p.val = win5_8.index t (0 : Fin 2) * 2000 + 1 * p.val; omega
  | ⟨1, _⟩ => show win5_2.index t (1 : Fin 2) * 1 + 1 * 0 = 0; omega

/-- The bias row is whole at every point: its one row, the output's column. -/
theorem read5_3 (t : Fin cfg5.N) (p : Fin 2000) (q : Fin 64) :
    iblk5 V c 3 t (ix2 (0 : Fin 1) q) = V c main_v82 (rowOf64 (((cfg5.win 8).blk t).view.emb (ix2 p q))) := by
  obtain ⟨o0, o1, a0, a1, b0, b1, s0, s1, c0, c1⟩ := blockIdx5 t
  show V c main_v82 (((cfg5.win 3).blk t).view.emb (ix2 (0 : Fin 1) q))
    = V c main_v82 (rowOf64 (((cfg5.win 8).blk t).view.emb (ix2 p q)))
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * q.val = win5_8.index t (1 : Fin 2) * 64 + 1 * q.val; omega

/-- WHAT POINT `t` WRITES BACK is block `t` of the last convolution's formula on the arrays the region finds. An
    entry (p, q) of the block is entry (2000·t + p, q) of the array; the node windows' blocks hold the same row, the
    bias row the same column. -/
theorem flushed5_eq (t : Fin cfg5.N) :
    (dat5 V c).flushed 8 t = ((cfg5.win 8).blk t).view.read (Elt Ideal)
      (last2d (V c main_v81) (V c main_v68) (V c main_v27) (V c main_v82)) := by
  show (cfg5.win 8).cut (grid5.coords t) ((dat5 V c).after 8 t) = _
  rw [after5_8]
  unfold out5_8
  rw [View.canon_unit_zero zeroOffsets5]
  simp only [View.ld_unit_zero (S := S2000x64) zeroOffsets5, View.ld_unit_zero (S := S2000x1) zeroOffsets5,
    View.ld_unit_zero (S := S1x64) zeroOffsets5]
  funext j
  obtain ⟨p, q, rfl⟩ : ∃ (p : Fin 2000) (q : Fin 64), j = ix2 p q := ⟨j 0, j 1, eq_ix2 j⟩
  refine (k5_pay1_at _ _ _ _ p q).trans ?_
  exact lastAt_congr (read5_0 V c t p q) (read5_1 V c t p q) (read5_2 V c t p q) (read5_3 V c t p q)

/-! ## The blocks tile the array -/

/-- An index of the array is in point `t`'s block iff each coordinate is in the block's range on its axis. -/
theorem mem_blk5 (t : Fin cfg5.N) (i : S50000x64.Idx) :
    i ∈ ((cfg5.win 8).blk t).view.set ↔ ∀ a : Fin 2, win5_8.index t a * S2000x64.size a ≤ (i a).val
      ∧ (i a).val < win5_8.index t a * S2000x64.size a + S2000x64.size a := by
  show i ∈ ((View.whole main_v87).slice (win5_8.rect t)).set ↔ _
  rw [View.set_slice_whole, Rect.mem_set_unit]
  exact Iff.rfl

/-- Row `r` lies in the block of point `r / 2000`: 50000 = 25 · 2000, so every entry is written. -/
theorem cover5 (i : S50000x64.Idx) :
    ∃ t : Fin cfg5.N, (cfg5.win 8).flush t = true ∧ i ∈ ((cfg5.win 8).blk t).view.set := by
  have hi0 : (i 0).val < 50000 := (i 0).isLt
  have hi1 : (i 1).val < 64 := (i 1).isLt
  have hN : cfg5.N = 25 := N_5
  have ht : (i 0).val / 2000 < cfg5.N := by rw [hN]; omega
  obtain ⟨o0, o1, -⟩ := blockIdx5 ⟨(i 0).val / 2000, ht⟩
  refine ⟨⟨(i 0).val / 2000, ht⟩, flush5_8 _, ?_⟩
  rw [mem_blk5]
  intro a
  match a with
  | ⟨0, _⟩ =>
    show win5_8.index ⟨(i 0).val / 2000, ht⟩ (0 : Fin 2) * 2000 ≤ (i 0).val
      ∧ (i 0).val < win5_8.index ⟨(i 0).val / 2000, ht⟩ (0 : Fin 2) * 2000 + 2000
    have o0' : win5_8.index ⟨(i 0).val / 2000, ht⟩ (0 : Fin 2) = (i 0).val / 2000 := o0
    omega
  | ⟨1, _⟩ =>
    show win5_8.index ⟨(i 0).val / 2000, ht⟩ (1 : Fin 2) * 64 ≤ (i 1).val
      ∧ (i 1).val < win5_8.index ⟨(i 0).val / 2000, ht⟩ (1 : Fin 2) * 64 + 64
    omega

/-! ## The region's output array -/

/-- After the last combine region its output array is the last convolution's formula, entry by entry, of the four
    arrays its body reads. -/
theorem region5_out : (dat5 V c).arrAt 8 cfg5.N = last2d (V c main_v81) (V c main_v68) (V c main_v27) (V c main_v82) :=
  (dat5 V c).arrAt_eq_of_cover 8 _ (fun t _ => flushed5_eq V c t) cover5

end Region

end Cert.Gcn

end
-- ==== Proof.KernelValue.lean ====
/-
  The kernel program's result array is the network `gcn` of its arguments.

  The boundary contents `W0` … `W10` are walked once, layer by layer. In each layer the matmul region leaves the whole
  product of what the previous layer left and the layer's weights; the host stretch after it forms the aggregate of
  that product along the edges and lays the layer's vectors out as rows; the combine region leaves, entry by entry,
  the reference's arithmetic of the aggregate, the product, the self-loop column and the rows. The edge lists, the
  edge coefficients and the self-loop column are made once, before the first region, and nothing in between writes
  them (Proof/Keep.lean).
-/
import proofs.«420302_j43971875177077_3_alg».proof.Proof.Gen.KernelIdeal.Frame
import proofs.«420302_j43971875177077_3_alg».proof.Proof.Stages
import proofs.«420302_j43971875177077_3_alg».proof.Proof.StagesRead
import proofs.«420302_j43971875177077_3_alg».proof.Proof.Keep
import proofs.«420302_j43971875177077_3_alg».proof.Proof.HostStretch
import proofs.«420302_j43971875177077_3_alg».proof.Proof.RegionMM0
import proofs.«420302_j43971875177077_3_alg».proof.Proof.RegionMM2
import proofs.«420302_j43971875177077_3_alg».proof.Proof.RegionMM4
import proofs.«420302_j43971875177077_3_alg».proof.Proof.RegionComb1
import proofs.«420302_j43971875177077_3_alg».proof.Proof.RegionComb3
import proofs.«420302_j43971875177077_3_alg».proof.Proof.RegionComb5

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat)

section Chain
variable (m : (ℓ : Loc nD τ sig) → Buf (Elt Ideal) ℓ) (ρ : Dev nD → PrngReg) (c : Dev nD)

/-! ## Layer 1 -/

/-- The first product. -/
theorem prod1 : W2 m ρ c (Proc.devRef .tc main_v28) = matmul128 (m ((c : Thread nD τ).loc main_arg0)) (m ((c : Thread nD τ).loc main_arg2)) :=
  (W2_arr m ρ c 2).trans ((region0_out (V1 m ρ) c).trans
    (congrArg₂ matmul128 (arg0_W1 m ρ c) (arg2_W1 m ρ c)))

/-- The first aggregate. -/
theorem agg1 : W3 m ρ c (Proc.devRef .tc main_v41) =
    aggregate128 (matmul128 (m ((c : Thread nD τ).loc main_arg0)) (m ((c : Thread nD τ).loc main_arg2))) (srcOf (m ((c : Thread nD τ).loc main_arg1))) (dstOf (m ((c : Thread nD τ).loc main_arg1))) (edgeCoef (srcOf (m ((c : Thread nD τ).loc main_arg1))) (dstOf (m ((c : Thread nD τ).loc main_arg1)))) := by
  rw [agg_W3, prod1, src_W2, dst_W2, coef_W2, src_W1, dst_W1, coef_W1]

/-- The first hidden layer's output. -/
theorem out1 : W4 m ρ c (Proc.devRef .tc main_v47) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 8).trans ((region1_out (V3 m ρ) c).trans ?_)
  show hidden2d (W3 m ρ c (Proc.devRef .tc main_v41)) (W3 m ρ c (Proc.devRef .tc main_v28)) (W3 m ρ c (Proc.devRef .tc main_v27))
    (W3 m ρ c (Proc.devRef .tc main_v42)) (W3 m ρ c (Proc.devRef .tc main_v43)) (W3 m ρ c (Proc.devRef .tc main_v44))
    (W3 m ρ c (Proc.devRef .tc main_v45)) (W3 m ρ c (Proc.devRef .tc main_v46)) = _
  rw [agg1, h1_W3, prod1, scale_W3, scale_W1, bias_W3, gamma_W3, beta_W3, mean_W3, var_W3,
    arg3_W2, arg4_W2, arg5_W2, arg6_W2, arg7_W2]
  exact (hidden_as2d _ _ _ _ _ _ _ _).symm

/-! ## Layer 2 -/

theorem prod2 : W5 m ρ c (Proc.devRef .tc main_v48) =
    matmul128 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (W5_arr m ρ c 2).trans ((region2_out (V4 m ρ) c).trans
    (congrArg₂ matmul128 (out1 m ρ c) (arg8_W4 m ρ c)))

theorem agg2 : W6 m ρ c (Proc.devRef .tc main_v61) =
    aggregate128 (matmul128 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))
      (srcOf (m ((c : Thread nD τ).loc main_arg1))) (dstOf (m ((c : Thread nD τ).loc main_arg1))) (edgeCoef (srcOf (m ((c : Thread nD τ).loc main_arg1))) (dstOf (m ((c : Thread nD τ).loc main_arg1)))) := by
  rw [agg_W6, prod2, src_W5, dst_W5, coef_W5, src_W1, dst_W1, coef_W1]

theorem out2 : W7 m ρ c (Proc.devRef .tc main_v67) =
    hidden (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 8).trans ((region3_out (V6 m ρ) c).trans ?_)
  show hidden2d (W6 m ρ c (Proc.devRef .tc main_v61)) (W6 m ρ c (Proc.devRef .tc main_v48)) (W6 m ρ c (Proc.devRef .tc main_v27))
    (W6 m ρ c (Proc.devRef .tc main_v62)) (W6 m ρ c (Proc.devRef .tc main_v63)) (W6 m ρ c (Proc.devRef .tc main_v64))
    (W6 m ρ c (Proc.devRef .tc main_v65)) (W6 m ρ c (Proc.devRef .tc main_v66)) = _
  rw [agg2, h2_W6, prod2, scale_W6, scale_W1, bias_W6, gamma_W6, beta_W6, mean_W6, var_W6,
    arg9_W5, arg10_W5, arg11_W5, arg12_W5, arg13_W5]
  exact (hidden_as2d _ _ _ _ _ _ _ _).symm

/-! ## Layer 3 -/

theorem prod3 : W8 m ρ c (Proc.devRef .tc main_v68) =
    matmul64 (hidden (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)) :=
  (W8_arr m ρ c 2).trans ((region4_out (V7 m ρ) c).trans
    (congrArg₂ matmul64 (out2 m ρ c) (arg14_W7 m ρ c)))

theorem agg3 : W9 m ρ c (Proc.devRef .tc main_v81) =
    aggregate64 (matmul64 (hidden (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)))
      (srcOf (m ((c : Thread nD τ).loc main_arg1))) (dstOf (m ((c : Thread nD τ).loc main_arg1))) (edgeCoef (srcOf (m ((c : Thread nD τ).loc main_arg1))) (dstOf (m ((c : Thread nD τ).loc main_arg1)))) := by
  rw [agg_W9, prod3, src_W8, dst_W8, coef_W8, src_W1, dst_W1, coef_W1]

/-- The kernel program's result array is the network of its arguments. -/
theorem kernel_value : W10 m ρ c (Proc.devRef .tc main_v87) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W10_arr m ρ c 8).trans ((region5_out (V9 m ρ) c).trans ?_)
  show last2d (W9 m ρ c (Proc.devRef .tc main_v81)) (W9 m ρ c (Proc.devRef .tc main_v68)) (W9 m ρ c (Proc.devRef .tc main_v27))
    (W9 m ρ c (Proc.devRef .tc main_v82)) = _
  rw [agg3, h3_W9, prod3, scale_W9, scale_W1, bias_W9, arg15_W8]
  unfold gcn
  exact (conv64_as2d _ _ _ _).symm

end Chain

end Cert.Gcn

end
-- ==== Proof.RefStages.lean ====
/-
  The reference program's result is the network `gcn` of its arguments.

  The reference recomputes the edge coefficients and the self-loop scale in every layer from the same edge list, by the
  same operations: each layer's stage is therefore the same function of the layer's input, and the whole program, read
  one operation at a time, unfolds to `conv64 (hidden (hidden x …) …) …`.
-/
import proofs.«420302_j43971875177077_3_alg».proof.Proof.Gen.ReferenceIdeal.Run
import proofs.«420302_j43971875177077_3_alg».proof.Proof.Gen.ReferenceIdeal.Read
import proofs.«420302_j43971875177077_3_alg».proof.Proof.Stages

noncomputable section

namespace Cert.Gcn

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The first hidden layer. -/
theorem ref_layer1 (x0 : (⟨S50000x128, .f32⟩ : BufTy).Contents (Elt F)) (x1 : (⟨S2x800000, .i32⟩ : BufTy).Contents (Elt F)) (x2 : (⟨S128x128, .f32⟩ : BufTy).Contents (Elt F)) (x3 x4 x5 x6 x7 : (⟨S128, .f32⟩ : BufTy).Contents (Elt F)) :
    val_main_v67 (F := F) x0 x1 x2 x3 x4 x5 x6 x7 = hidden x0 x1 x2 x3 x4 x5 x6 x7 := rfl

/-- The second hidden layer, of the first one's output. -/
theorem ref_layer2 (x0 : (⟨S50000x128, .f32⟩ : BufTy).Contents (Elt F)) (x1 : (⟨S2x800000, .i32⟩ : BufTy).Contents (Elt F)) (x2 : (⟨S128x128, .f32⟩ : BufTy).Contents (Elt F)) (x3 x4 x5 x6 x7 : (⟨S128, .f32⟩ : BufTy).Contents (Elt F)) (x8 : (⟨S128x128, .f32⟩ : BufTy).Contents (Elt F)) (x9 x10 x11 x12 x13 : (⟨S128, .f32⟩ : BufTy).Contents (Elt F)) :
    val_main_v135 (F := F) x0 x1 x2 x3 x4 x5 x6 x7 x8 x9 x10 x11 x12 x13 = hidden (val_main_v67 (F := F) x0 x1 x2 x3 x4 x5 x6 x7) x1 x8 x9 x10 x11 x12 x13 := rfl

/-- The last convolution, of the second hidden layer's output. -/
theorem ref_layer3 (x0 : (⟨S50000x128, .f32⟩ : BufTy).Contents (Elt F)) (x1 : (⟨S2x800000, .i32⟩ : BufTy).Contents (Elt F)) (x2 : (⟨S128x128, .f32⟩ : BufTy).Contents (Elt F)) (x3 x4 x5 x6 x7 : (⟨S128, .f32⟩ : BufTy).Contents (Elt F)) (x8 : (⟨S128x128, .f32⟩ : BufTy).Contents (Elt F)) (x9 x10 x11 x12 x13 : (⟨S128, .f32⟩ : BufTy).Contents (Elt F)) (x14 : (⟨S128x64, .f32⟩ : BufTy).Contents (Elt F)) (x15 : (⟨S64, .f32⟩ : BufTy).Contents (Elt F)) :
    val_main_v183 (F := F) x0 x1 x2 x3 x4 x5 x6 x7 x8 x9 x10 x11 x12 x13 x14 x15 = conv64 (val_main_v135 (F := F) x0 x1 x2 x3 x4 x5 x6 x7 x8 x9 x10 x11 x12 x13) x1 x14 x15 := rfl

/-- The reference's result, one operation at a time, is the network. -/
theorem ref_value (x0 : (⟨S50000x128, .f32⟩ : BufTy).Contents (Elt F)) (x1 : (⟨S2x800000, .i32⟩ : BufTy).Contents (Elt F)) (x2 : (⟨S128x128, .f32⟩ : BufTy).Contents (Elt F)) (x3 x4 x5 x6 x7 : (⟨S128, .f32⟩ : BufTy).Contents (Elt F)) (x8 : (⟨S128x128, .f32⟩ : BufTy).Contents (Elt F)) (x9 x10 x11 x12 x13 : (⟨S128, .f32⟩ : BufTy).Contents (Elt F)) (x14 : (⟨S128x64, .f32⟩ : BufTy).Contents (Elt F)) (x15 : (⟨S64, .f32⟩ : BufTy).Contents (Elt F)) :
    val_main_v183 (F := F) x0 x1 x2 x3 x4 x5 x6 x7 x8 x9 x10 x11 x12 x13 x14 x15 = gcn x0 x1 x2 x3 x4 x5 x6 x7 x8 x9 x10 x11 x12 x13 x14 x15 := by
  rw [ref_layer3, ref_layer2, ref_layer1]
  rfl

end Cert.Gcn

end
-- ==== Proof.lean ====
/-
  The certificate of a three-layer graph convolution: a Pallas program of six kernel regions (a row-tiled matrix
  product and a row-tiled combine per layer) among gathers and scatter-adds on the host, against the plain reference.

  Frames. The kernel program's two frames are the generated several-region frames. The reference has no kernel: its
  frame is its generated run with the result dropped.

  Preservation. The ideal pass rewrote nothing; the conjunct is `True`.

  Equivalence at the ideal instance. Both programs end with the result array at `Cert.Gcn.gcn` of the sixteen
  arguments (Proof/Stages.lean): the reference because its operations, read one at a time, unfold to it
  (Proof/RefStages.lean); the kernel program because every matmul region leaves the whole product (its row blocks
  are rows of the whole product), every combine region leaves, entry by entry, the same arithmetic the reference
  applies (the 2000-row blocks tile the node axis), and the host stretches between them are the reference's own
  gather, scale and scatter-add (Proof/KernelValue.lean). No law of the extended reals beyond re-indexing is used,
  so the precondition is never opened.
-/
import proofs.«420302_j43971875177077_3_alg».proof.Defs
import proofs.«420302_j43971875177077_3_alg».proof.Proof.Gen.Kernel
import proofs.«420302_j43971875177077_3_alg».proof.Proof.Gen.Kernel.Frame
import proofs.«420302_j43971875177077_3_alg».proof.Proof.Gen.KernelIdeal
import proofs.«420302_j43971875177077_3_alg».proof.Proof.Gen.KernelIdeal.Frame
import proofs.«420302_j43971875177077_3_alg».proof.Proof.Gen.ReferenceIdeal
import proofs.«420302_j43971875177077_3_alg».proof.Proof.Gen.ReferenceIdeal.Run
import proofs.«420302_j43971875177077_3_alg».proof.Proof.Gen.ReferenceIdeal.Read
import proofs.«420302_j43971875177077_3_alg».proof.Proof.Gen.Pre_finite_inputs
import proofs.«420302_j43971875177077_3_alg».proof.Proof.KernelRun
import proofs.«420302_j43971875177077_3_alg».proof.Proof.KernelValue
import proofs.«420302_j43971875177077_3_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the (agreeing) arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.Gcn.kernel_value m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v183_eq, Cert.Gcn.ref_value, e0, e1, e2, e3, e4, e5, e6, e7, e8, e9, e10, e11, e12,
      e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
